-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel

variable [Facts]

def fn {F : FTy → Type} [FloatOps F] (main_arg0 : FVec F S128x100000 .f32) (main_arg1 : FVec F S128x100000 .f32) : IVec S_ 1 :=
  let main_v0 : FVec F S128x100000 .f32 := Host.absf main_arg0
  let main_cst : FVec F S_ .f32 := constant S_ .f32 0x7F800000#32
  let main_v1 : FVec F S128x100000 .f32 := broadcastInDim S128x100000 ![] bcast_S_S128x100000 main_cst
  let main_v2 : IVec S128x100000 1 := cmpf .olt main_v0 main_v1
  let main_c : IVec S_ 1 := constantI S_ 1 1#1
  let main_v3 : IVec S_ 1 := (fun x v => Host.reduce IntOp.andi x v reducesTo_S128x100000_S_d0_1 h_S_) main_v2 main_c
  let main_v4 : FVec F S128x100000 .f32 := Host.absf main_arg1
  let main_cst_0 : FVec F S_ .f32 := constant S_ .f32 0x7F800000#32
  let main_v5 : FVec F S128x100000 .f32 := broadcastInDim S128x100000 ![] bcast_S_S128x100000 main_cst_0
  let main_v6 : IVec S128x100000 1 := cmpf .olt main_v4 main_v5
  let main_c_1 : IVec S_ 1 := constantI S_ 1 1#1
  let main_v7 : IVec S_ 1 := (fun x v => Host.reduce IntOp.andi x v reducesTo_S128x100000_S_d0_1 h_S_) main_v6 main_c_1
  let main_v8 : IVec S_ 1 := andi main_v3 main_v7
  main_v8
-- ==== Kernel.lean ====
abbrev S128x100000 : Shape := ⟨2, ![128, 100000]⟩
abbrev S100000x128 : Shape := ⟨2, ![100000, 128]⟩
abbrev S2000x128 : Shape := ⟨2, ![2000, 128]⟩
abbrev S50x128 : Shape := ⟨2, ![50, 128]⟩
abbrev S128 : Shape := ⟨1, ![128]⟩
abbrev S1x128 : Shape := ⟨2, ![1, 128]⟩

abbrev nBuf : Space → Nat
  | .hbm => 6
  | .vmem => 10
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S100000x128, .f32⟩
  | .hbm, ⟨3, _⟩ => ⟨S100000x128, .f32⟩
  | .hbm, ⟨4, _⟩ => ⟨S100000x128, .f32⟩
  | .hbm, ⟨5, _⟩ => ⟨S128x100000, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S100000x128, .f32⟩
  | .local _ .vmem, ⟨7, _⟩ => ⟨S50x128, .f32⟩
  | .local _ .vmem, ⟨8, _⟩ => ⟨S50x128, .f32⟩
  | .local _ .vmem, ⟨9, _⟩ => ⟨S50x128, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![100], ![false]⟩

def k0_cond1 (i : grid0.Coords) : BitVec 1 :=
  let arg0 : BitVec 32 := BitVec.ofNat 32 (i 0).val
  let c50_i32 : BitVec 32 := 50#32
  let v0 : BitVec 1 := Scalar.cmpi .slt arg0 c50_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c2000_i32 : BitVec 32 := 2000#32
  let v21 : BitVec 32 := Scalar.muli arg0 c2000_i32
  let v22 : Index := Scalar.indexCast v21
  let c0_8 : Index := 0#32
  ![v22.toNat, 0]
def k0_off2 (i : grid0.Coords) : Fin 2 → Nat :=
  let arg0 : BitVec 32 := BitVec.ofNat 32 (i 0).val
  let v26 : Index := Scalar.indexCast arg0
  let c0_9 : Index := 0#32
  ![v26.toNat, 0]
def k0_cond3 (i : grid0.Coords) : BitVec 1 :=
  let arg0 : BitVec 32 := BitVec.ofNat 32 (i 0).val
  let c50_i32_2 : BitVec 32 := 50#32
  let v6 : BitVec 1 := Scalar.cmpi .sge arg0 c50_i32_2
  let v7 : BitVec 32 := Scalar.extui v6
  let c0_i32_3 : BitVec 32 := 0#32
  let v8 : BitVec 1 := Scalar.cmpi .ne v7 c0_i32_3
  v8

def k0_off3 (i : grid0.Coords) : Fin 2 → Nat :=
  let arg0 : BitVec 32 := BitVec.ofNat 32 (i 0).val
  let c50_i32_4 : BitVec 32 := 50#32
  let v9 : BitVec 32 := Scalar.subi arg0 c50_i32_4
  let c2000_i32 : BitVec 32 := 2000#32
  let v10 : BitVec 32 := Scalar.muli v9 c2000_i32
  let v11 : Index := Scalar.indexCast v10
  let c0 : Index := 0#32
  ![v11.toNat, 0]
def k0_off4 (i : grid0.Coords) : Fin 2 → Nat :=
  let arg0 : BitVec 32 := BitVec.ofNat 32 (i 0).val
  let c50_i32_4 : BitVec 32 := 50#32
  let v9 : BitVec 32 := Scalar.subi arg0 c50_i32_4
  let v13 : Index := Scalar.indexCast v9
  let c0_5 : Index := 0#32
  ![v13.toNat, 0]
def cc0_transform_0 (i : grid0.Coords) : Fin 2 → Nat :=
  let arg0 : BitVec 32 := BitVec.ofNat 32 (i 0).val
  let c50_i32 : BitVec 32 := 50#32
  let v0 : BitVec 1 := Scalar.cmpi .slt arg0 c50_i32
  let c49_i32 : BitVec 32 := 49#32
  let v1 : BitVec 32 := Scalar.select v0 arg0 c49_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c50_i32 : BitVec 32 := 50#32
  let v0 : BitVec 1 := Scalar.cmpi .slt arg0 c50_i32
  let c49_i32 : BitVec 32 := 49#32
  let v1 : BitVec 32 := Scalar.select v0 arg0 c49_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c50_i32 : BitVec 32 := 50#32
  let v0 : BitVec 1 := Scalar.cmpi .slt arg0 c50_i32
  let c50_i32_0 : BitVec 32 := 50#32
  let v1 : BitVec 32 := Scalar.subi arg0 c50_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S128x100000_S100000x128_1_0 : S128x100000.Transposes [1, 0] S100000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  reduces_S2000x128_S128 : S2000x128.Reduces [0] S128
  shapeCasts_S128_S1x128 : S128.ShapeCasts S1x128
  broadcasts_S1x128_S2000x128 : S1x128.Broadcasts S2000x128
  h_S1x128 : 0 < S1x128.numel
  shapeCasts_S1x128_S1x128 : S1x128.ShapeCasts S1x128
  inb_S50x128_S50x128_0_0 : ∀ a, (![0, 0] : Fin 2 → Nat) a + S50x128.size a ≤ S50x128.size a
  h_S50x128 : 0 < S50x128.numel
  reduces_S50x128_S128 : S50x128.Reduces [0] S128
  broadcasts_S1x128_S50x128 : S1x128.Broadcasts S50x128
  shapeCasts_S50x128_S50x128 : S50x128.ShapeCasts S50x128
  transposes_S100000x128_S128x100000_1_0 : S100000x128.Transposes [1, 0] S128x100000
  hrank0 : 0 < grid0.rank
  k0_off1_inb : ∀ i : grid0.Coords, ∀ (k0_h1 : k0_cond1 i = 1#1), ∀ a, (k0_off1 i) a + S2000x128.size a ≤ S100000x128.size a
  k0_off2_inb : ∀ i : grid0.Coords, ∀ (k0_h1 : k0_cond1 i = 1#1), ∀ a, (k0_off2 i) a + S1x128.size a ≤ S50x128.size a
  k0_off3_inb : ∀ i : grid0.Coords, ∀ (k0_h3 : k0_cond3 i = 1#1), ∀ a, (k0_off3 i) a + S2000x128.size a ≤ S100000x128.size a
  k0_off4_inb : ∀ i : grid0.Coords, ∀ (k0_h3 : k0_cond3 i = 1#1), ∀ a, (k0_off4 i) a + S1x128.size a ≤ S50x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)

variable [Facts₀]

abbrev win0_0 : Pipeline.Window sig grid0 :=
  Pipeline.Window.ofSpec (Memref.whole main_v0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩

abbrev nBuf : Space → Nat
  | .hbm => 20
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S128x100000, .f32⟩
  | .hbm, ⟨3, _⟩ => ⟨S_, .f32⟩
  | .hbm, ⟨4, _⟩ => ⟨S128x100000, .f32⟩
  | .hbm, ⟨5, _⟩ => ⟨S128x100000, .f32⟩
  | .hbm, ⟨6, _⟩ => ⟨S_, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S128x1, .f32⟩
  | .hbm, ⟨12, _⟩ => ⟨S128x100000, .f32⟩
  | .hbm, ⟨13, _⟩ => ⟨S128x100000, .f32⟩
  | .hbm, ⟨14, _⟩ => ⟨S128x100000, .f32⟩
  | .hbm, ⟨15, _⟩ => ⟨S_, .f32⟩
  | .hbm, ⟨16, _⟩ => ⟨S128, .f32⟩
  | .hbm, ⟨17, _⟩ => ⟨S128x1, .f32⟩
  | .hbm, ⟨18, _⟩ => ⟨S128x100000, .f32⟩
  | .hbm, ⟨19, _⟩ => ⟨S128x100000, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S128x100000 : S_.BroadcastsInDim S128x100000 (![] : Fin 0 → Fin S128x100000.rank)
  reducesTo_S128x100000_S128_d1 : S128x100000.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)

variable [Facts₀]

class Facts : Prop extends Facts₀ where

variable [Facts]
-- ==== Proof.ScheduleBits.lean ====
/-
  The schedule of the one pallas_call over its 100 grid points, in closed form.

  Points 0..49 are phase one (point t handles chunk t: rows 2000 t .. 2000 t + 1999 of the
  transposed view); point 50 runs the combine step and then phase two for chunk 0; points 51..99
  run phase two for chunk t - 50. The output window sits on block 0 through phase one, untouched
  by the body and not written back, and is written back at every point from 50 on.
-/
import proofs.«177340_g81492709474519_cont_9to1c4b_556_9_alg».proof.Proof.Gen.Kernel.Frame
import proofs.«177340_g81492709474519_cont_9to1c4b_556_9_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the combine step, as the body computes it: the point is point 50. -/
abbrev condEq (i : grid0.Coords) : Prop :=
  Scalar.cmpi .ne (Scalar.extui (Scalar.cmpi .eq (BitVec.ofNat 32 (i 0).val) 50#32)) 0#32 = 1#1

/-- Phase one runs exactly at the points below 50. -/
theorem hcond1 : ∀ t : Fin cfg0.N, k0_cond1 (grid0.coords t) = 1#1 ↔ t.val < 50 :=
  (by decide +kernel : ∀ t : Fin grid0.N, k0_cond1 (grid0.coords t) = 1#1 ↔ t.val < 50)

/-- The combine step runs exactly at point 50. -/
theorem hcondEq : ∀ t : Fin cfg0.N, condEq (grid0.coords t) ↔ t.val = 50 :=
  (by decide +kernel : ∀ t : Fin grid0.N, condEq (grid0.coords t) ↔ t.val = 50)

/-- Phase two runs exactly at the points from 50 on. -/
theorem hcond3 : ∀ t : Fin cfg0.N, k0_cond3 (grid0.coords t) = 1#1 ↔ 50 ≤ t.val :=
  (by decide +kernel : ∀ t : Fin grid0.N, k0_cond3 (grid0.coords t) = 1#1 ↔ 50 ≤ t.val)

/-- In phase one, point t stores its exponentials at rows 2000 t onward, -/
theorem hoff1 : ∀ t : Fin cfg0.N, t.val < 50 → k0_off1 (grid0.coords t) = ![2000 * t.val, 0] :=
  (by decide +kernel : ∀ t : Fin grid0.N, t.val < 50 → k0_off1 (grid0.coords t) = ![2000 * t.val, 0])

/-- and its row of maxima and of sums at row t. -/
theorem hoff2 : ∀ t : Fin cfg0.N, t.val < 50 → k0_off2 (grid0.coords t) = ![t.val, 0] :=
  (by decide +kernel : ∀ t : Fin grid0.N, t.val < 50 → k0_off2 (grid0.coords t) = ![t.val, 0])

/-- In phase two, point t reads the exponentials at rows 2000 (t - 50) onward, -/
theorem hoff3 : ∀ t : Fin cfg0.N, 50 ≤ t.val → k0_off3 (grid0.coords t) = ![2000 * (t.val - 50), 0] :=
  (by decide +kernel : ∀ t : Fin grid0.N, 50 ≤ t.val → k0_off3 (grid0.coords t) = ![2000 * (t.val - 50), 0])

/-- and the factors at row t - 50. -/
theorem hoff4 : ∀ t : Fin cfg0.N, 50 ≤ t.val → k0_off4 (grid0.coords t) = ![t.val - 50, 0] :=
  (by decide +kernel : ∀ t : Fin grid0.N, 50 ≤ t.val → k0_off4 (grid0.coords t) = ![t.val - 50, 0])

/-- The input windows are never idle. -/
theorem live0 : ∀ t : Fin cfg0.N, cfg0.idle 0 (grid0.coords t) = false := by decide +kernel
theorem live1 : ∀ t : Fin cfg0.N, cfg0.idle 1 (grid0.coords t) = false := by decide +kernel
/-- Through phase one the output window is idle and not written back; -/
theorem idle2 : ∀ t : Fin cfg0.N, t.val < 50 → cfg0.idle 2 (grid0.coords t) = true := by decide +kernel
theorem noFlush2 : ∀ t : Fin cfg0.N, t.val < 50 → (cfg0.win 2).flush t = false := by decide +kernel
/-- from point 50 on it is live, and written back, its block being block t - 50. -/
theorem live2 : ∀ t : Fin cfg0.N, 50 ≤ t.val → cfg0.idle 2 (grid0.coords t) = false := by decide +kernel
theorem flush2 : ∀ t : Fin cfg0.N, 50 ≤ t.val → (cfg0.win 2).flush t = true := by decide +kernel
theorem index2 : ∀ t : Fin cfg0.N, 50 ≤ t.val → (cfg0.win 2).index t = ![t.val - 50, 0] := by decide +kernel
/-- The input windows' block at a point of phase one is block t. -/
theorem index0 : ∀ t : Fin cfg0.N, t.val < 50 → (cfg0.win 0).index t = ![t.val, 0] := by decide +kernel
theorem index1 : ∀ t : Fin cfg0.N, t.val < 50 → (cfg0.win 1).index t = ![t.val, 0] := by decide +kernel

end Cert.Kernel.Body

end
-- ==== Proof.RunsBits.lean ====
/-
  The kernel body run once in each of its three control cases, on any whole staging and scratch
  buffers: phase one alone (a point below 50), the combine step followed by phase two (point 50),
  phase two alone (a point above 50). Each run says what every buffer the case touches holds
  afterwards, as a function of what it held before.
-/
import proofs.«177340_g81492709474519_cont_9to1c4b_556_9_alg».proof.Proof.ScheduleBits
import Idealize.ShloMosaic.Lib.Pipeline.Value
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole block loaded from a whole buffer that holds x is x. -/
theorem readAt_block (m : Memref sig .tc .vmem S2000x128 .f32) (h : m.IsWhole) (x : Vec F S2000x128 .f32) :
    View.readAt (Elt F) m.view (Rect.unit (s := S2000x128) ![0, 0] S2000x128.size inb_S2000x128_S2000x128_0_0).toLoadRect (h.unread x) = x := by
  rw [View.readAt_eq_ld, h.read_unread]
  exact View.ld_unit_zero (S := S2000x128) (funext fun a => by fin_cases a <;> rfl) _ x

/-- The same for the 50 rows of a scratch table. -/
theorem readAt_table (m : Memref sig .tc .vmem S50x128 .f32) (h : m.IsWhole) (x : Vec F S50x128 .f32) :
    View.readAt (Elt F) m.view (Rect.unit (s := S50x128) ![0, 0] S50x128.size inb_S50x128_S50x128_0_0).toLoadRect (h.unread x) = x := by
  rw [View.readAt_eq_ld, h.read_unread]
  exact View.ld_unit_zero (S := S50x128) (funext fun a => by fin_cases a <;> rfl) _ x

/-- The buffer of exponentials after a phase-one point stored the block w at its band of 2000 rows. -/
def bandStored (arg4 : Memref sig .tc .vmem S100000x128 .f32) (harg4 : arg4.IsWhole) (i : grid0.Coords) (h1 : k0_cond1 i = 1#1)
    (e : Vec F S100000x128 .f32) (w : Vec F S2000x128 .f32) : Vec F S100000x128 .f32 :=
  arg4.view.read (Elt F) (arg4.view.writes (Elt F) (harg4.unread e)
    [⟨Rect.unit (s := S100000x128) (k0_off1 i) S2000x128.size (k0_off1_inb i h1), w⟩])

/-- A 50-row table after a phase-one point stored the row w at its own row. -/
def rowStored (arg5 : Memref sig .tc .vmem S50x128 .f32) (harg5 : arg5.IsWhole) (i : grid0.Coords) (h1 : k0_cond1 i = 1#1)
    (mb : Vec F S50x128 .f32) (w : Vec F S1x128 .f32) : Vec F S50x128 .f32 :=
  arg5.view.read (Elt F) (arg5.view.writes (Elt F) (harg5.unread mb)
    [⟨Rect.unit (s := S50x128) (k0_off2 i) S1x128.size (k0_off2_inb i h1), w⟩])

/-- The band of 2000 rows of exponentials a phase-two point loads. -/
def bandLoaded (arg4 : Memref sig .tc .vmem S100000x128 .f32) (harg4 : arg4.IsWhole) (i : grid0.Coords) (h3 : k0_cond3 i = 1#1)
    (e : Vec F S100000x128 .f32) : Vec F S2000x128 .f32 :=
  View.readAt (Elt F) arg4.view (Rect.unit (s := S100000x128) (k0_off3 i) S2000x128.size (k0_off3_inb i h3)).toLoadRect (harg4.unread e)

/-- The row of factors a phase-two point loads. -/
def rowLoaded (arg7 : Memref sig .tc .vmem S50x128 .f32) (harg7 : arg7.IsWhole) (i : grid0.Coords) (h3 : k0_cond3 i = 1#1)
    (fb : Vec F S50x128 .f32) : Vec F S1x128 .f32 :=
  View.readAt (Elt F) arg7.view (Rect.unit (s := S50x128) (k0_off4 i) S1x128.size (k0_off4_inb i h3)).toLoadRect (harg7.unread fb)

/-- A whole block stored over a whole buffer leaves the block. -/
theorem read_block_stored (m : Memref sig .tc .vmem S2000x128 .f32) (h : m.IsWhole) (x w : Vec F S2000x128 .f32) :
    m.view.read (Elt F) (m.view.writes (Elt F) (h.unread x)
      [⟨Rect.unit (s := S2000x128) ![0, 0] S2000x128.size inb_S2000x128_S2000x128_0_0, w⟩]) = w := by
  funext y
  exact View.read_writes_cons_unit_of_mem m.view (h.unread x) inb_S2000x128_S2000x128_0_0 w [] y y rfl
    (fun a => by fin_cases a <;> exact (Nat.zero_add _).symm)

/-- The same for a 50-row table. -/
theorem read_table_stored (m : Memref sig .tc .vmem S50x128 .f32) (h : m.IsWhole) (x w : Vec F S50x128 .f32) :
    m.view.read (Elt F) (m.view.writes (Elt F) (h.unread x)
      [⟨Rect.unit (s := S50x128) ![0, 0] S50x128.size inb_S50x128_S50x128_0_0, w⟩]) = w := by
  funext y
  exact View.read_writes_cons_unit_of_mem m.view (h.unread x) inb_S50x128_S50x128_0_0 w [] y y rfl
    (fun a => by fin_cases a <;> exact (Nat.zero_add _).symm)

/-- A row loaded from a table right after the table was stored whole is the row of what was stored. -/
theorem readCov_table_stored (m : Memref sig .tc .vmem S50x128 .f32) (h : m.IsWhole) (w : Vec F S50x128 .f32) (r : Rect S50x128) :
    m.view.readCov [(⟨Rect.unit (s := S50x128) ![0, 0] S50x128.size inb_S50x128_S50x128_0_0, w⟩ : View.Piece (Elt F) S50x128 .f32)] r.toLoadRect
      = View.readAt (Elt F) m.view r.toLoadRect (h.unread w) := by
  have hz : (![0, 0] : Fin S50x128.rank → Nat) = fun _ => 0 := funext fun a => by fin_cases a <;> rfl
  have hcov : ∀ y : S50x128.Idx, ∃ p ∈ [(⟨Rect.unit (s := S50x128) ![0, 0] S50x128.size inb_S50x128_S50x128_0_0, w⟩ : View.Piece (Elt F) S50x128 .f32)], y ∈ p.1.set :=
    fun y => ⟨_, List.mem_singleton_self _, View.mem_set_unit_zero (S := S50x128) hz inb_S50x128_S50x128_0_0 y⟩
  rw [View.readCov_eq_canon_ld m.view _ r hcov, View.canon_unit_zero (S := S50x128) hz inb_S50x128_S50x128_0_0 w, View.readAt_eq_ld, h.read_unread]

set_option maxHeartbeats 1000000 in
/-- PHASE ONE ALONE. From the two input blocks a and g the body stores the block of exponentials into its
    band of the big scratch and the rows of maxima and of sums into row t of the two tables; the inputs, the
    output buffer and the table of factors are not touched. -/
theorem run_phase1 (c : Dev nD) (i : grid0.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S100000x128 .f32) (harg4 : arg4.IsWhole)
    (arg5 : Memref sig .tc .vmem S50x128 .f32) (harg5 : arg5.IsWhole) (arg6 : Memref sig .tc .vmem S50x128 .f32) (harg6 : arg6.IsWhole)
    (arg7 : Memref sig .tc .vmem S50x128 .f32) (harg7 : arg7.IsWhole)
    (hc1 : k0_cond1 i = 1#1) (hc2 : ¬condEq i) (hc3 : ¬k0_cond3 i = 1#1)
    (a g : Vec F S2000x128 .f32) (e : Vec F S100000x128 .f32) (mb pb : Vec F S50x128 .f32)
    (E : Set ℕ) (K : PUnit → sProp 𝕄) :
    iprop(owns (c : Thread nD τ) arg1 fullShare a ∗ owns (c : Thread nD τ) arg2 fullShare g
        ∗ owns (c : Thread nD τ) arg4 fullShare e ∗ owns (c : Thread nD τ) arg5 fullShare mb ∗ owns (c : Thread nD τ) arg6 fullShare pb
        ∗ (iprop(owns (c : Thread nD τ) arg1 fullShare a ∗ owns (c : Thread nD τ) arg2 fullShare g
            ∗ owns (c : Thread nD τ) arg4 fullShare (bandStored arg4 harg4 i hc1 e (k0_pay4 a g))
            ∗ owns (c : Thread nD τ) arg5 fullShare (rowStored arg5 harg5 i hc1 mb (k0_pay5 a g))
            ∗ owns (c : Thread nD τ) arg6 fullShare (rowStored arg6 harg6 i hc1 pb (k0_pay6 a g))) -∗ K ⟨⟩))
      ⊢ wp frame (wpE (defs₀ (F := F)) Variants.none c none) E (cc0_body i arg1 harg1 arg2 harg2 arg3 harg3 arg4 harg4 arg5 harg5 arg6 harg6 arg7 harg7) K := by
  simp only [cc0_body_eq_skeleton]; unfold cc0_body_skel
  unfold owns bandStored rowStored
  iintro ⟨⟨%f0, %hf0, H0⟩, ⟨%f1, %hf1, H1⟩, ⟨%f4, %hf4, H4⟩, ⟨%f5, %hf5, H5⟩, ⟨%f6, %hf6, H6⟩, Hk⟩
  obtain rfl := harg1.eq_unread hf0; obtain rfl := harg2.eq_unread hf1
  obtain rfl := harg4.eq_unread hf4; obtain rfl := harg5.eq_unread hf5; obtain rfl := harg6.eq_unread hf6
  sl_exec (disch := first | exact hc1 | exact hc2 | exact hc3)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H4]
  · iexists _; isplitr; swap; · iexact H4
    ipureintro; rw [readAt_block arg1 harg1 a, readAt_block arg2 harg2 g]
  isplitl [H5]
  · iexists _; isplitr; swap; · iexact H5
    ipureintro; rw [readAt_block arg1 harg1 a, readAt_block arg2 harg2 g]
  iexists _; isplitr; swap; · iexact H6
  ipureintro; rw [readAt_block arg1 harg1 a, readAt_block arg2 harg2 g]

set_option maxHeartbeats 1000000 in
/-- PHASE TWO ALONE. The body loads a band of exponentials and a row of factors and stores their product
    into the output buffer, whole; the scratch buffers are not changed. -/
theorem run_phase2 (c : Dev nD) (i : grid0.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S100000x128 .f32) (harg4 : arg4.IsWhole)
    (arg5 : Memref sig .tc .vmem S50x128 .f32) (harg5 : arg5.IsWhole) (arg6 : Memref sig .tc .vmem S50x128 .f32) (harg6 : arg6.IsWhole)
    (arg7 : Memref sig .tc .vmem S50x128 .f32) (harg7 : arg7.IsWhole)
    (hc1 : ¬k0_cond1 i = 1#1) (hc2 : ¬condEq i) (hc3 : k0_cond3 i = 1#1)
    (o : Vec F S2000x128 .f32) (e : Vec F S100000x128 .f32) (fb : Vec F S50x128 .f32)
    (E : Set ℕ) (K : PUnit → sProp 𝕄) :
    iprop(owns (c : Thread nD τ) arg3 fullShare o ∗ owns (c : Thread nD τ) arg4 fullShare e ∗ owns (c : Thread nD τ) arg7 fullShare fb
        ∗ (iprop(owns (c : Thread nD τ) arg3 fullShare (k0_pay8 (bandLoaded arg4 harg4 i hc3 e) (rowLoaded arg7 harg7 i hc3 fb))
            ∗ owns (c : Thread nD τ) arg4 fullShare e ∗ owns (c : Thread nD τ) arg7 fullShare fb) -∗ K ⟨⟩))
      ⊢ wp frame (wpE (defs₀ (F := F)) Variants.none c none) E (cc0_body i arg1 harg1 arg2 harg2 arg3 harg3 arg4 harg4 arg5 harg5 arg6 harg6 arg7 harg7) K := by
  simp only [cc0_body_eq_skeleton]; unfold cc0_body_skel
  unfold owns bandLoaded rowLoaded
  iintro ⟨⟨%f3, %hf3, H3⟩, ⟨%f4, %hf4, H4⟩, ⟨%f7, %hf7, H7⟩, Hk⟩
  obtain rfl := harg3.eq_unread hf3; obtain rfl := harg4.eq_unread hf4; obtain rfl := harg7.eq_unread hf7
  sl_exec (disch := first | exact hc1 | exact hc2 | exact hc3)
  sl_step
  iapply Hk
  isplitl [H3]
  · iexists _; isplitr; swap; · iexact H3
    ipureintro; exact read_block_stored arg3 harg3 o _
  isplitl [H4]
  · iexists _; isplitr; swap; · iexact H4
    ipureintro; exact harg4.read_unread _
  iexists _; isplitr; swap; · iexact H7
  ipureintro; exact harg7.read_unread _

set_option maxHeartbeats 1000000 in
/-- THE COMBINE STEP, THEN PHASE TWO (point 50, where the row of factors loaded is row 0). From the two
    tables mb and pb the body stores the table of factors, whole; it then loads a band of exponentials and a
    row of the factors just stored and stores their product into the output buffer, whole. -/
theorem run_combine (c : Dev nD) (i : grid0.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S100000x128 .f32) (harg4 : arg4.IsWhole)
    (arg5 : Memref sig .tc .vmem S50x128 .f32) (harg5 : arg5.IsWhole) (arg6 : Memref sig .tc .vmem S50x128 .f32) (harg6 : arg6.IsWhole)
    (arg7 : Memref sig .tc .vmem S50x128 .f32) (harg7 : arg7.IsWhole)
    (hc1 : ¬k0_cond1 i = 1#1) (hc2 : condEq i) (hc3 : k0_cond3 i = 1#1) (ho4 : k0_off4 i = ![0, 0])
    (o : Vec F S2000x128 .f32) (e : Vec F S100000x128 .f32) (mb pb fb : Vec F S50x128 .f32)
    (E : Set ℕ) (K : PUnit → sProp 𝕄) :
    iprop(owns (c : Thread nD τ) arg3 fullShare o ∗ owns (c : Thread nD τ) arg4 fullShare e
        ∗ owns (c : Thread nD τ) arg5 fullShare mb ∗ owns (c : Thread nD τ) arg6 fullShare pb ∗ owns (c : Thread nD τ) arg7 fullShare fb
        ∗ (iprop(owns (c : Thread nD τ) arg3 fullShare (k0_pay8 (bandLoaded arg4 harg4 i hc3 e) (rowLoaded arg7 harg7 i hc3 (k0_pay7 mb pb)))
            ∗ owns (c : Thread nD τ) arg4 fullShare e ∗ owns (c : Thread nD τ) arg5 fullShare mb ∗ owns (c : Thread nD τ) arg6 fullShare pb
            ∗ owns (c : Thread nD τ) arg7 fullShare (k0_pay7 mb pb)) -∗ K ⟨⟩))
      ⊢ wp frame (wpE (defs₀ (F := F)) Variants.none c none) E (cc0_body i arg1 harg1 arg2 harg2 arg3 harg3 arg4 harg4 arg5 harg5 arg6 harg6 arg7 harg7) K := by
  simp only [cc0_body_eq_skeleton]; unfold cc0_body_skel
  unfold owns bandLoaded rowLoaded
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  letI : ClosedOff (k0_off4 i) := ⟨![0, 0], ho4⟩
  sl_exec (disch := first | exact hc1 | exact hc2 | exact hc3)
  sl_step
  sl_unfold_words
  iapply Hk
  isplitl [H3]
  · iexists _; isplitr; swap; · iexact H3
    ipureintro
    rw [readAt_table arg5 harg5 mb, readAt_table arg6 harg6 pb]
    refine (read_block_stored arg3 harg3 o _).trans ?_
    exact congrArg (k0_pay8 _) (readCov_table_stored arg7 harg7 (k0_pay7 mb pb) _)
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  iexists _; isplitr; swap; · iexact H7
  ipureintro
  rw [readAt_table arg5 harg5 mb, readAt_table arg6 harg6 pb]
  exact read_table_stored arg7 harg7 fb _

end Cert.Kernel.Body

end
-- ==== Proof.DataBits.lean ====
/-
  The proof data of the one pallas_call, its body obligation, the frame run and the frame.

  What the scratch buffers hold is followed chunk by chunk. Chunk j of the transposed view (rows
  2000 j .. 2000 j + 1999) has, as functions of the two input blocks at point j, its block of
  exponentials, its row of maxima and its row of sums. After n points of phase one, bands 0 .. n - 1 of the
  big scratch hold those blocks and rows 0 .. n - 1 of the two tables those rows, whatever the rest holds (it
  is what the launch left there, which nobody names). Point 50 turns the two full tables into the table of
  factors, and from there on the body multiplies band j by row j of that table into output block j.
-/
import proofs.«177340_g81492709474519_cont_9to1c4b_556_9_alg».proof.Proof.RunsBits
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Names for the buffers -/

/-- The scratch buffers: the exponentials, the table of maxima, the table of sums, the table of factors. -/
abbrev scE : Memref sig .tc .vmem S100000x128 .f32 := Memref.whole cc0_scratch0
abbrev scM : Memref sig .tc .vmem S50x128 .f32 := Memref.whole cc0_scratch1
abbrev scP : Memref sig .tc .vmem S50x128 .f32 := Memref.whole cc0_scratch2
abbrev scF : Memref sig .tc .vmem S50x128 .f32 := Memref.whole cc0_scratch3
theorem hE : (scE).IsWhole := Memref.isWhole_whole _
theorem hM : (scM).IsWhole := Memref.isWhole_whole _
theorem hP : (scP).IsWhole := Memref.isWhole_whole _
theorem hF : (scF).IsWhole := Memref.isWhole_whole _

/-- Each window's current staging buffer at point t. -/
abbrev ms0 (t : Fin cfg0.N) : Memref sig .tc .vmem S2000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2000x128 .f32 := win0_2.stage (cfg0.slots t 2)
abbrev hs2 (t : Fin cfg0.N) : (ms2 t).IsWhole := hstage0_2 ((cfg0.slots t 2).cast nbuf0_2)

/-- What the launch hands the region, with the four scratch buffers as buffers owned at some contents. -/
theorem PhiA_eq (c : Dev nD) :
    (Pipeline.ΦA spec0 c : sProp 𝕄)
      = iprop(iprop((∃ d, owns (c : Thread nD τ) scE fullShare d) ∗ (∃ d, owns (c : Thread nD τ) scM fullShare d)
          ∗ (∃ d, owns (c : Thread nD τ) scP fullShare d) ∗ (∃ d, owns (c : Thread nD τ) scF fullShare d)) ∗ (∃ r, prngReg c r)) := by
  unfold Pipeline.ΦA; rw [scopedRest0_eq]; simp only [scE, scM, scP, scF, owns_whole]; try rfl

/-! ## The chunks -/

theorem N100 : cfg0.N = 100 := N_0

/-- The two input blocks at point t. -/
abbrev blkA (c : Dev nD) (t : Fin cfg0.N) : Vec F S2000x128 .f32 := iblk m c 0 t
abbrev blkG (c : Dev nD) (t : Fin cfg0.N) : Vec F S2000x128 .f32 := iblk m c 1 t

/-- Chunk j's point of phase one. -/
def pt (j : Fin 50) : Fin cfg0.N := ⟨j.val, by have := j.isLt; have := N100; omega⟩
/-- The chunk a point of phase two writes out: t - 50 (and something in range at the other points, where it is not used). -/
def chunkOf (t : Fin cfg0.N) : Fin 50 := ⟨(t.val - 50) % 50, Nat.mod_lt _ (by decide)⟩

/-- Chunk j's exponentials, maxima and sums, as the body computes them from the input blocks at point j. -/
def expChunk (c : Dev nD) (j : Fin 50) : Vec F S2000x128 .f32 := k0_pay4 (blkA m c (pt j)) (blkG m c (pt j))
def maxRow (c : Dev nD) (j : Fin 50) : Vec F S1x128 .f32 := k0_pay5 (blkA m c (pt j)) (blkG m c (pt j))
def sumRow (c : Dev nD) (j : Fin 50) : Vec F S1x128 .f32 := k0_pay6 (blkA m c (pt j)) (blkG m c (pt j))

/-- The two tables once phase one is over: row j is chunk j's row. -/
def maxTable (c : Dev nD) : Vec F S50x128 .f32 := fun y => maxRow m c ⟨(y 0).val, idx2_lt0 y⟩ (ix2 (0 : Fin 1) ⟨(y 1).val, idx2_lt1 y⟩)
def sumTable (c : Dev nD) : Vec F S50x128 .f32 := fun y => sumRow m c ⟨(y 0).val, idx2_lt0 y⟩ (ix2 (0 : Fin 1) ⟨(y 1).val, idx2_lt1 y⟩)
/-- The table of factors the combine step computes from them, and its row j. -/
def factorTable (c : Dev nD) : Vec F S50x128 .f32 := k0_pay7 (maxTable m c) (sumTable m c)
def factorRow (c : Dev nD) (j : Fin 50) : Vec F S1x128 .f32 := fun x => factorTable m c (ix2 j ⟨(x 1).val, idx2_lt1 x⟩)
/-- Output block j: chunk j's exponentials times row j of the factors. -/
def outChunk (c : Dev nD) (j : Fin 50) : Vec F S2000x128 .f32 := k0_pay8 (expChunk m c j) (factorRow m c j)

/-- Entry x of band j, as an index of the big scratch. -/
def bandIdx (j : Fin 50) (x : S2000x128.Idx) : S100000x128.Idx :=
  ix2 (⟨2000 * j.val + (x 0).val, by have := j.isLt; have := idx2_lt0 x; omega⟩ : Fin 100000) (⟨(x 1).val, idx2_lt1 x⟩ : Fin 128)

/-- What is known of the scratch buffers before point n. -/
def Inv (c : Dev nD) (n : ℕ) (e : Vec F S100000x128 .f32) (mb pb fb : Vec F S50x128 .f32) : Prop :=
  (∀ j : Fin 50, j.val < n → ∀ x : S2000x128.Idx, e (bandIdx j x) = expChunk m c j x)
  ∧ (∀ j : Fin 50, j.val < n → ∀ l : Fin 128, mb (ix2 j l) = maxRow m c j (ix2 (0 : Fin 1) l))
  ∧ (∀ j : Fin 50, j.val < n → ∀ l : Fin 128, pb (ix2 j l) = sumRow m c j (ix2 (0 : Fin 1) l))
  ∧ (50 < n → fb = factorTable m c)

/-- The region invariant before point n: the four scratch buffers at contents of which Inv holds, and the
    generator register at some state. -/
def PhiS (c : Dev nD) (n : ℕ) : sProp 𝕄 :=
  iprop(∃ e, ∃ mb, ∃ pb, ∃ fb, ⌜Inv m c n e mb pb fb⌝ ∗ owns (c : Thread nD τ) scE fullShare e ∗ owns (c : Thread nD τ) scM fullShare mb
    ∗ owns (c : Thread nD τ) scP fullShare pb ∗ owns (c : Thread nD τ) scF fullShare fb ∗ (∃ r, prngReg c r))

/-! ## The proof data -/

/-- The arrays as the region finds them; after the body each input buffer at its block and the output buffer
    at the output block of the point's chunk; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outChunk m c (chunkOf t)
  Φ t := PhiS m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outChunk m c (chunkOf t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The invariant is kept -/

/-- Reading the big scratch through its own view is reading its contents. -/
theorem read_writes_nil_E (e : Vec F S100000x128 .f32) (y : S100000x128.Idx) :
    (scE).view.read (Elt F) ((scE).view.writes (Elt F) ((hE).unread e) []) y = e y := by
  rw [View.writes_nil, (hE).read_unread]
theorem read_writes_nil_T (mt : Memref sig .tc .vmem S50x128 .f32) (h : mt.IsWhole) (x : Vec F S50x128 .f32) (y : S50x128.Idx) :
    mt.view.read (Elt F) (mt.view.writes (Elt F) (h.unread x) []) y = x y := by
  rw [View.writes_nil, h.read_unread]

/-- A point of phase one extends what is known by its own chunk. -/
theorem inv_phase1 (c : Dev nD) (t : Fin cfg0.N) (h1 : t.val < 50) (hc1 : k0_cond1 (grid0.coords t) = 1#1)
    (e : Vec F S100000x128 .f32) (mb pb fb : Vec F S50x128 .f32) (hI : Inv m c t.val e mb pb fb) :
    Inv m c (t.val + 1)
      (bandStored scE hE (grid0.coords t) hc1 e (k0_pay4 (blkA m c t) (blkG m c t)))
      (rowStored scM hM (grid0.coords t) hc1 mb (k0_pay5 (blkA m c t) (blkG m c t)))
      (rowStored scP hP (grid0.coords t) hc1 pb (k0_pay6 (blkA m c t) (blkG m c t))) fb := by
  obtain ⟨hIe, hIm, hIp, -⟩ := hI
  refine ⟨fun j hj x => ?_, fun j hj l => ?_, fun j hj l => ?_, fun h => by omega⟩
  · unfold bandStored
    by_cases hjt : j.val = t.val
    · have hpt : pt j = t := Fin.ext hjt
      rw [View.read_writes_cons_rows_of_mem (scE).view _ (k0_off1_inb _ hc1) _ [] (bandIdx j x) x (hoff1 t h1)
        (by show 2000 * j.val + (x 0).val = 2000 * t.val + (x 0).val; rw [hjt]) rfl]
      unfold expChunk; rw [hpt]
    · rw [View.read_writes_cons_rows_of_not_mem (scE).view _ (k0_off1_inb _ hc1) _ [] (bandIdx j x) (hoff1 t h1) rfl
        (Or.inl (by show 2000 * j.val + (x 0).val < 2000 * t.val; have := idx2_lt0 x; omega)), read_writes_nil_E]
      exact hIe j (by omega) x
  · unfold rowStored
    by_cases hjt : j.val = t.val
    · have hpt : pt j = t := Fin.ext hjt
      rw [View.read_writes_cons_rows_of_mem (scM).view _ (k0_off2_inb _ hc1) _ [] (ix2 j l) (ix2 (0 : Fin 1) l) (hoff2 t h1)
        (by show j.val = t.val + 0; omega) rfl]
      unfold maxRow; rw [hpt]
    · rw [View.read_writes_cons_rows_of_not_mem (scM).view _ (k0_off2_inb _ hc1) _ [] (ix2 j l) (hoff2 t h1) rfl
        (Or.inl (by show j.val < t.val; omega)), read_writes_nil_T]
      exact hIm j (by omega) l
  · unfold rowStored
    by_cases hjt : j.val = t.val
    · have hpt : pt j = t := Fin.ext hjt
      rw [View.read_writes_cons_rows_of_mem (scP).view _ (k0_off2_inb _ hc1) _ [] (ix2 j l) (ix2 (0 : Fin 1) l) (hoff2 t h1)
        (by show j.val = t.val + 0; omega) rfl]
      unfold sumRow; rw [hpt]
    · rw [View.read_writes_cons_rows_of_not_mem (scP).view _ (k0_off2_inb _ hc1) _ [] (ix2 j l) (hoff2 t h1) rfl
        (Or.inl (by show j.val < t.val; omega)), read_writes_nil_T]
      exact hIp j (by omega) l

/-- Once phase one is over the two tables are the full tables. -/
theorem tables_of_inv (c : Dev nD) (n : ℕ) (hn : 50 ≤ n) (e : Vec F S100000x128 .f32) (mb pb fb : Vec F S50x128 .f32)
    (hI : Inv m c n e mb pb fb) : mb = maxTable m c ∧ pb = sumTable m c := by
  obtain ⟨-, hIm, hIp, -⟩ := hI
  constructor
  · funext y
    have hy : y = ix2 (⟨(y 0).val, idx2_lt0 y⟩ : Fin 50) (⟨(y 1).val, idx2_lt1 y⟩ : Fin 128) := eq_ix2 y
    rw [hy]; exact hIm _ (by have := idx2_lt0 y; show (y 0).val < n; omega) _
  · funext y
    have hy : y = ix2 (⟨(y 0).val, idx2_lt0 y⟩ : Fin 50) (⟨(y 1).val, idx2_lt1 y⟩ : Fin 128) := eq_ix2 y
    rw [hy]; exact hIp _ (by have := idx2_lt0 y; show (y 0).val < n; omega) _

/-- The band a point of phase two loads is its chunk's exponentials. -/
theorem bandLoaded_eq (c : Dev nD) (t : Fin cfg0.N) (h3 : 50 ≤ t.val) (hc3 : k0_cond3 (grid0.coords t) = 1#1)
    (n : ℕ) (hn : 50 ≤ n) (e : Vec F S100000x128 .f32) (mb pb fb : Vec F S50x128 .f32) (hI : Inv m c n e mb pb fb) :
    bandLoaded scE hE (grid0.coords t) hc3 e = expChunk m c (chunkOf t) := by
  have hN : t.val < 100 := lt_of_lt_of_eq t.isLt N100
  funext x
  unfold bandLoaded
  rw [View.readAt_eq_ld, (hE).read_unread]
  refine Eq.trans (congrArg e (?_ : _ = bandIdx (chunkOf t) x)) (hI.1 (chunkOf t) (by show (t.val - 50) % 50 < n; omega) x)
  funext a; apply Fin.ext
  have ho := hoff3 t h3
  match a with
  | ⟨0, _⟩ =>
    show k0_off3 (grid0.coords t) 0 + 1 * (x 0).val = 2000 * ((t.val - 50) % 50) + (x 0).val
    rw [ho]; show 2000 * (t.val - 50) + 1 * (x 0).val = _; omega
  | ⟨1, _⟩ =>
    show k0_off3 (grid0.coords t) 1 + 1 * (x 1).val = (x 1).val
    rw [ho]; show 0 + 1 * (x 1).val = _; omega

/-- The row a point of phase two loads from a table is the table's row of its chunk. -/
theorem rowLoaded_eq (t : Fin cfg0.N) (h3 : 50 ≤ t.val) (hc3 : k0_cond3 (grid0.coords t) = 1#1)
    (mt : Memref sig .tc .vmem S50x128 .f32) (h : mt.IsWhole) (fb : Vec F S50x128 .f32) :
    rowLoaded mt h (grid0.coords t) hc3 fb = fun x => fb (ix2 (chunkOf t) ⟨(x 1).val, idx2_lt1 x⟩) := by
  have hN : t.val < 100 := lt_of_lt_of_eq t.isLt N100
  funext x
  unfold rowLoaded
  rw [View.readAt_eq_ld, h.read_unread]
  refine congrArg fb ?_
  funext a; apply Fin.ext
  have ho := hoff4 t h3
  match a with
  | ⟨0, _⟩ =>
    show k0_off4 (grid0.coords t) 0 + 1 * (x 0).val = (t.val - 50) % 50
    rw [ho]; show (t.val - 50) + 1 * (x 0).val = _; have := idx2_lt0 x; omega
  | ⟨1, _⟩ =>
    show k0_off4 (grid0.coords t) 1 + 1 * (x 1).val = (x 1).val
    rw [ho]; show 0 + 1 * (x 1).val = _; omega

/-- What a point from 50 on leaves in the output buffer is its chunk's output block, the table of factors
    being the one computed from the full tables. -/
theorem out_eq (c : Dev nD) (t : Fin cfg0.N) (h3 : 50 ≤ t.val) (hc3 : k0_cond3 (grid0.coords t) = 1#1)
    (e : Vec F S100000x128 .f32) (mb pb fb : Vec F S50x128 .f32) (hI : Inv m c t.val e mb pb fb)
    (ft : Vec F S50x128 .f32) (hft : ft = factorTable m c) :
    k0_pay8 (bandLoaded scE hE (grid0.coords t) hc3 e) (rowLoaded scF hF (grid0.coords t) hc3 ft) = outChunk m c (chunkOf t) := by
  rw [bandLoaded_eq m c t h3 hc3 t.val h3 e mb pb fb hI, rowLoaded_eq t h3 hc3 scF hF ft, hft]
  rfl

/-! ## The body obligation -/

set_option maxHeartbeats 4000000 in
/-- The body at any point. Below 50 it is phase one: the invariant hands over the scratch buffers, the run
    stores the point's chunk, and the invariant takes them back with that chunk known; the output buffer is
    handed back untouched. At 50 the two tables are full, the run turns them into the table of factors and
    writes output block 0. Above 50 the run writes output block t - 50 from the band and the row it loads. -/
theorem sound_body (c : Dev nD) (t : Fin cfg0.N) :
    iprop((dats m 0 c).Φ t.castSucc ∗ (dats m 0 c).owesAt () t.castSucc
        ∗ (∃ d, owns (c : Thread nD τ) (ms0 t) fullShare ((dats m 0 c).before 0 t d))
        ∗ (∃ d, owns (c : Thread nD τ) (ms1 t) fullShare ((dats m 0 c).before 1 t d))
        ∗ (∃ d, owns (c : Thread nD τ) (ms2 t) fullShare ((dats m 0 c).before 2 t d)))
      ⊢ wp frame (wpE (defs₀ (F := F)) Variants.none c none) Set.univ (bodyAt0 t) (fun _ =>
          iprop((dats m 0 c).Φ t.succ ∗ (dats m 0 c).owesAt () t.succ
            ∗ (dats m 0 c).leavesExact 0 t ∗ (dats m 0 c).leavesExact 1 t ∗ (dats m 0 c).leavesExact 2 t)) := by
  have hN : t.val < 100 := lt_of_lt_of_eq t.isLt N100
  simp only [before0, before1]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (ms0 t) fullShare ((dats m 0 c).after 0 t) from by
        unfold Dat.leavesExact; rw [live0 t], after0,
      show (dats m 0 c).leavesExact 1 t = owns (c : Thread nD τ) (ms1 t) fullShare ((dats m 0 c).after 1 t) from by
        unfold Dat.leavesExact; rw [live1 t], after1]
  by_cases h1 : t.val < 50
  · have hc1 := (hcond1 t).mpr h1
    have hc2 : ¬condEq (grid0.coords t) := fun h => by have := (hcondEq t).mp h; omega
    have hc3 : ¬k0_cond3 (grid0.coords t) = 1#1 := fun h => by have := (hcond3 t).mp h; omega
    rw [Dat.leavesExact_idle (dats m 0 c) 2 t (idle2 t h1) (noFlush2 t h1)]
    unfold PhiS
    iintro ⟨⟨%e, %mb, %pb, %fb, %hI, HE, HM, HP, HF, Hg⟩, Ho, ⟨%d0, H0⟩, ⟨%d1, H1⟩, ⟨%d2, H2⟩⟩
    iapply (run_phase1 c (grid0.coords t) (ms0 t) (hs0 t) (ms1 t) (hs1 t) (ms2 t) (hs2 t) scE hE scM hM scP hP scF hF
      hc1 hc2 hc3 (blkA m c t) (blkG m c t) e mb pb Set.univ _)
    isplitl [H0]; · iexact H0
    isplitl [H1]; · iexact H1
    isplitl [HE]; · iexact HE
    isplitl [HM]; · iexact HM
    isplitl [HP]; · iexact HP
    iintro ⟨H0, H1, HE, HM, HP⟩
    isplitl [HE HM HP HF Hg]
    · iexists _; iexists _; iexists _; iexists _
      isplitr; · ipureintro; exact inv_phase1 m c t h1 hc1 e mb pb fb hI
      isplitl [HE]; · iexact HE
      isplitl [HM]; · iexact HM
      isplitl [HP]; · iexact HP
      isplitl [HF]; · iexact HF
      iexact Hg
    isplitl [Ho]; · iexact Ho
    isplitl [H0]; · iexact H0
    isplitl [H1]; · iexact H1
    iexists _; iexact H2
  · have h3 : 50 ≤ t.val := by omega
    have hc1 : ¬k0_cond1 (grid0.coords t) = 1#1 := fun h => by have := (hcond1 t).mp h; omega
    have hc3 := (hcond3 t).mpr h3
    rw [show (dats m 0 c).leavesExact 2 t = owns (c : Thread nD τ) (ms2 t) fullShare ((dats m 0 c).after 2 t) from by
          unfold Dat.leavesExact; rw [live2 t h3], after2]
    unfold PhiS
    iintro ⟨⟨%e, %mb, %pb, %fb, %hI, HE, HM, HP, HF, Hg⟩, Ho, ⟨%d0, H0⟩, ⟨%d1, H1⟩, ⟨%d2, H2⟩⟩
    obtain ⟨hmb, hpb⟩ := tables_of_inv m c t.val h3 e mb pb fb hI
    by_cases h50 : t.val = 50
    · have hc2 := (hcondEq t).mpr h50
      have ho4 : k0_off4 (grid0.coords t) = ![0, 0] := by rw [hoff4 t h3, h50]
      have hft : k0_pay7 mb pb = factorTable m c := by rw [hmb, hpb]; rfl
      iapply (run_combine c (grid0.coords t) (ms0 t) (hs0 t) (ms1 t) (hs1 t) (ms2 t) (hs2 t) scE hE scM hM scP hP scF hF
        hc1 hc2 hc3 ho4 _ e mb pb fb Set.univ _)
      isplitl [H2]; · iexact H2
      isplitl [HE]; · iexact HE
      isplitl [HM]; · iexact HM
      isplitl [HP]; · iexact HP
      isplitl [HF]; · iexact HF
      iintro ⟨H2, HE, HM, HP, HF⟩
      rw [out_eq m c t h3 hc3 e mb pb fb hI (k0_pay7 mb pb) hft]
      isplitl [HE HM HP HF Hg]
      · iexists e; iexists mb; iexists pb; iexists (k0_pay7 mb pb)
        isplitr
        · ipureintro
          exact ⟨fun j hj x => hI.1 j (by have := j.isLt; omega) x, fun j hj l => hI.2.1 j (by have := j.isLt; omega) l,
            fun j hj l => hI.2.2.1 j (by have := j.isLt; omega) l, fun _ => hft⟩
        isplitl [HE]; · iexact HE
        isplitl [HM]; · iexact HM
        isplitl [HP]; · iexact HP
        isplitl [HF]; · iexact HF
        iexact Hg
      isplitl [Ho]; · iexact Ho
      isplitl [H0]; · iexact H0
      isplitl [H1]; · iexact H1
      iexact H2
    · have hc2 : ¬condEq (grid0.coords t) := fun h => h50 ((hcondEq t).mp h)
      have hft : fb = factorTable m c := hI.2.2.2 (by omega)
      iapply (run_phase2 c (grid0.coords t) (ms0 t) (hs0 t) (ms1 t) (hs1 t) (ms2 t) (hs2 t) scE hE scM hM scP hP scF hF
        hc1 hc2 hc3 _ e fb Set.univ _)
      isplitl [H2]; · iexact H2
      isplitl [HE]; · iexact HE
      isplitl [HF]; · iexact HF
      iintro ⟨H2, HE, HF⟩
      rw [out_eq m c t h3 hc3 e mb pb fb hI fb hft]
      isplitl [HE HM HP HF Hg]
      · iexists e; iexists mb; iexists pb; iexists fb
        isplitr
        · ipureintro
          exact ⟨fun j hj x => hI.1 j (by have := j.isLt; omega) x, fun j hj l => hI.2.1 j (by have := j.isLt; omega) l,
            fun j hj l => hI.2.2.1 j (by have := j.isLt; omega) l, fun _ => hft⟩
        isplitl [HE]; · iexact HE
        isplitl [HM]; · iexact HM
        isplitl [HP]; · iexact HP
        isplitl [HF]; · iexact HF
        iexact Hg
      isplitl [Ho]; · iexact Ho
      isplitl [H0]; · iexact H0
      isplitl [H1]; · iexact H1
      iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is known yet. -/
theorem hin (c : Dev nD) : Pipeline.ΦA spec0 c ⊢ (dats m 0 c).Φ 0 := by
  rw [show (dats m 0 c).Φ 0 = PhiS m c 0 from rfl, PhiA_eq]; unfold PhiS
  iintro ⟨⟨⟨%e, HE⟩, ⟨%mb, HM⟩, ⟨%pb, HP⟩, ⟨%fb, HF⟩⟩, Hg⟩
  iexists e; iexists mb; iexists pb; iexists fb
  isplitr
  · ipureintro
    exact ⟨fun j hj => absurd hj (Nat.not_lt_zero _), fun j hj => absurd hj (Nat.not_lt_zero _),
      fun j hj => absurd hj (Nat.not_lt_zero _), fun h => absurd h (by decide)⟩
  isplitl [HE]; · iexact HE
  isplitl [HM]; · iexact HM
  isplitl [HP]; · iexact HP
  isplitl [HF]; · iexact HF
  iexact Hg

/-- After the last point what is known of the scratch buffers is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]; unfold PhiS
  iintro ⟨%e, %mb, %pb, %fb, -, HE, HM, HP, HF, Hg⟩
  isplitl [HE HM HP HF]
  · isplitl [HE]; · iexists _; iexact HE
    isplitl [HM]; · iexists _; iexact HM
    isplitl [HP]; · iexists _; iexact HP
    iexists _; iexact HF
  iexact Hg

/-! ## The run and the frame -/

set_option backward.isDefEq.respectTransparency.types false in
/-- From any memory with zero counters every weakly fair execution of the program terminates, and in every final
    state each array of the pipeline holds what the write-backs of the proof data leave and every other unscoped
    buffer what the lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.Schedule.lean ====
/-
  The schedule of the one pallas_call over its 100 grid points, in closed form.

  Points 0..49 are phase one (point t handles chunk t: rows 2000 t .. 2000 t + 1999 of the
  transposed view); point 50 runs the combine step and then phase two for chunk 0; points 51..99
  run phase two for chunk t - 50. The output window sits on block 0 through phase one, untouched
  by the body and not written back, and is written back at every point from 50 on.
-/
import proofs.«177340_g81492709474519_cont_9to1c4b_556_9_alg».proof.Proof.Gen.KernelIdeal.Frame
import proofs.«177340_g81492709474519_cont_9to1c4b_556_9_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the combine step, as the body computes it: the point is point 50. -/
abbrev condEq (i : grid0.Coords) : Prop :=
  Scalar.cmpi .ne (Scalar.extui (Scalar.cmpi .eq (BitVec.ofNat 32 (i 0).val) 50#32)) 0#32 = 1#1

/-- Phase one runs exactly at the points below 50. -/
theorem hcond1 : ∀ t : Fin cfg0.N, k0_cond1 (grid0.coords t) = 1#1 ↔ t.val < 50 :=
  (by decide +kernel : ∀ t : Fin grid0.N, k0_cond1 (grid0.coords t) = 1#1 ↔ t.val < 50)

/-- The combine step runs exactly at point 50. -/
theorem hcondEq : ∀ t : Fin cfg0.N, condEq (grid0.coords t) ↔ t.val = 50 :=
  (by decide +kernel : ∀ t : Fin grid0.N, condEq (grid0.coords t) ↔ t.val = 50)

/-- Phase two runs exactly at the points from 50 on. -/
theorem hcond3 : ∀ t : Fin cfg0.N, k0_cond3 (grid0.coords t) = 1#1 ↔ 50 ≤ t.val :=
  (by decide +kernel : ∀ t : Fin grid0.N, k0_cond3 (grid0.coords t) = 1#1 ↔ 50 ≤ t.val)

/-- In phase one, point t stores its exponentials at rows 2000 t onward, -/
theorem hoff1 : ∀ t : Fin cfg0.N, t.val < 50 → k0_off1 (grid0.coords t) = ![2000 * t.val, 0] :=
  (by decide +kernel : ∀ t : Fin grid0.N, t.val < 50 → k0_off1 (grid0.coords t) = ![2000 * t.val, 0])

/-- and its row of maxima and of sums at row t. -/
theorem hoff2 : ∀ t : Fin cfg0.N, t.val < 50 → k0_off2 (grid0.coords t) = ![t.val, 0] :=
  (by decide +kernel : ∀ t : Fin grid0.N, t.val < 50 → k0_off2 (grid0.coords t) = ![t.val, 0])

/-- In phase two, point t reads the exponentials at rows 2000 (t - 50) onward, -/
theorem hoff3 : ∀ t : Fin cfg0.N, 50 ≤ t.val → k0_off3 (grid0.coords t) = ![2000 * (t.val - 50), 0] :=
  (by decide +kernel : ∀ t : Fin grid0.N, 50 ≤ t.val → k0_off3 (grid0.coords t) = ![2000 * (t.val - 50), 0])

/-- and the factors at row t - 50. -/
theorem hoff4 : ∀ t : Fin cfg0.N, 50 ≤ t.val → k0_off4 (grid0.coords t) = ![t.val - 50, 0] :=
  (by decide +kernel : ∀ t : Fin grid0.N, 50 ≤ t.val → k0_off4 (grid0.coords t) = ![t.val - 50, 0])

/-- The input windows are never idle. -/
theorem live0 : ∀ t : Fin cfg0.N, cfg0.idle 0 (grid0.coords t) = false := by decide +kernel
theorem live1 : ∀ t : Fin cfg0.N, cfg0.idle 1 (grid0.coords t) = false := by decide +kernel
/-- Through phase one the output window is idle and not written back; -/
theorem idle2 : ∀ t : Fin cfg0.N, t.val < 50 → cfg0.idle 2 (grid0.coords t) = true := by decide +kernel
theorem noFlush2 : ∀ t : Fin cfg0.N, t.val < 50 → (cfg0.win 2).flush t = false := by decide +kernel
/-- from point 50 on it is live, and written back, its block being block t - 50. -/
theorem live2 : ∀ t : Fin cfg0.N, 50 ≤ t.val → cfg0.idle 2 (grid0.coords t) = false := by decide +kernel
theorem flush2 : ∀ t : Fin cfg0.N, 50 ≤ t.val → (cfg0.win 2).flush t = true := by decide +kernel
theorem index2 : ∀ t : Fin cfg0.N, 50 ≤ t.val → (cfg0.win 2).index t = ![t.val - 50, 0] := by decide +kernel
/-- The input windows' block at a point of phase one is block t. -/
theorem index0 : ∀ t : Fin cfg0.N, t.val < 50 → (cfg0.win 0).index t = ![t.val, 0] := by decide +kernel
theorem index1 : ∀ t : Fin cfg0.N, t.val < 50 → (cfg0.win 1).index t = ![t.val, 0] := by decide +kernel

end Cert.KernelIdeal.Body

end
-- ==== Proof.Runs.lean ====
/-
  The kernel body run once in each of its three control cases, on any whole staging and scratch
  buffers: phase one alone (a point below 50), the combine step followed by phase two (point 50),
  phase two alone (a point above 50). Each run says what every buffer the case touches holds
  afterwards, as a function of what it held before.
-/
import proofs.«177340_g81492709474519_cont_9to1c4b_556_9_alg».proof.Proof.Schedule
import Idealize.ShloMosaic.Lib.Pipeline.Value
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole block loaded from a whole buffer that holds x is x. -/
theorem readAt_block (m : Memref sig .tc .vmem S2000x128 .f32) (h : m.IsWhole) (x : Vec F S2000x128 .f32) :
    View.readAt (Elt F) m.view (Rect.unit (s := S2000x128) ![0, 0] S2000x128.size inb_S2000x128_S2000x128_0_0).toLoadRect (h.unread x) = x := by
  rw [View.readAt_eq_ld, h.read_unread]
  exact View.ld_unit_zero (S := S2000x128) (funext fun a => by fin_cases a <;> rfl) _ x

/-- The same for the 50 rows of a scratch table. -/
theorem readAt_table (m : Memref sig .tc .vmem S50x128 .f32) (h : m.IsWhole) (x : Vec F S50x128 .f32) :
    View.readAt (Elt F) m.view (Rect.unit (s := S50x128) ![0, 0] S50x128.size inb_S50x128_S50x128_0_0).toLoadRect (h.unread x) = x := by
  rw [View.readAt_eq_ld, h.read_unread]
  exact View.ld_unit_zero (S := S50x128) (funext fun a => by fin_cases a <;> rfl) _ x

/-- The buffer of exponentials after a phase-one point stored the block w at its band of 2000 rows. -/
def bandStored (arg4 : Memref sig .tc .vmem S100000x128 .f32) (harg4 : arg4.IsWhole) (i : grid0.Coords) (h1 : k0_cond1 i = 1#1)
    (e : Vec F S100000x128 .f32) (w : Vec F S2000x128 .f32) : Vec F S100000x128 .f32 :=
  arg4.view.read (Elt F) (arg4.view.writes (Elt F) (harg4.unread e)
    [⟨Rect.unit (s := S100000x128) (k0_off1 i) S2000x128.size (k0_off1_inb i h1), w⟩])

/-- A 50-row table after a phase-one point stored the row w at its own row. -/
def rowStored (arg5 : Memref sig .tc .vmem S50x128 .f32) (harg5 : arg5.IsWhole) (i : grid0.Coords) (h1 : k0_cond1 i = 1#1)
    (mb : Vec F S50x128 .f32) (w : Vec F S1x128 .f32) : Vec F S50x128 .f32 :=
  arg5.view.read (Elt F) (arg5.view.writes (Elt F) (harg5.unread mb)
    [⟨Rect.unit (s := S50x128) (k0_off2 i) S1x128.size (k0_off2_inb i h1), w⟩])

/-- The band of 2000 rows of exponentials a phase-two point loads. -/
def bandLoaded (arg4 : Memref sig .tc .vmem S100000x128 .f32) (harg4 : arg4.IsWhole) (i : grid0.Coords) (h3 : k0_cond3 i = 1#1)
    (e : Vec F S100000x128 .f32) : Vec F S2000x128 .f32 :=
  View.readAt (Elt F) arg4.view (Rect.unit (s := S100000x128) (k0_off3 i) S2000x128.size (k0_off3_inb i h3)).toLoadRect (harg4.unread e)

/-- The row of factors a phase-two point loads. -/
def rowLoaded (arg7 : Memref sig .tc .vmem S50x128 .f32) (harg7 : arg7.IsWhole) (i : grid0.Coords) (h3 : k0_cond3 i = 1#1)
    (fb : Vec F S50x128 .f32) : Vec F S1x128 .f32 :=
  View.readAt (Elt F) arg7.view (Rect.unit (s := S50x128) (k0_off4 i) S1x128.size (k0_off4_inb i h3)).toLoadRect (harg7.unread fb)

/-- A whole block stored over a whole buffer leaves the block. -/
theorem read_block_stored (m : Memref sig .tc .vmem S2000x128 .f32) (h : m.IsWhole) (x w : Vec F S2000x128 .f32) :
    m.view.read (Elt F) (m.view.writes (Elt F) (h.unread x)
      [⟨Rect.unit (s := S2000x128) ![0, 0] S2000x128.size inb_S2000x128_S2000x128_0_0, w⟩]) = w := by
  funext y
  exact View.read_writes_cons_unit_of_mem m.view (h.unread x) inb_S2000x128_S2000x128_0_0 w [] y y rfl
    (fun a => by fin_cases a <;> exact (Nat.zero_add _).symm)

/-- The same for a 50-row table. -/
theorem read_table_stored (m : Memref sig .tc .vmem S50x128 .f32) (h : m.IsWhole) (x w : Vec F S50x128 .f32) :
    m.view.read (Elt F) (m.view.writes (Elt F) (h.unread x)
      [⟨Rect.unit (s := S50x128) ![0, 0] S50x128.size inb_S50x128_S50x128_0_0, w⟩]) = w := by
  funext y
  exact View.read_writes_cons_unit_of_mem m.view (h.unread x) inb_S50x128_S50x128_0_0 w [] y y rfl
    (fun a => by fin_cases a <;> exact (Nat.zero_add _).symm)

/-- A row loaded from a table right after the table was stored whole is the row of what was stored. -/
theorem readCov_table_stored (m : Memref sig .tc .vmem S50x128 .f32) (h : m.IsWhole) (w : Vec F S50x128 .f32) (r : Rect S50x128) :
    m.view.readCov [(⟨Rect.unit (s := S50x128) ![0, 0] S50x128.size inb_S50x128_S50x128_0_0, w⟩ : View.Piece (Elt F) S50x128 .f32)] r.toLoadRect
      = View.readAt (Elt F) m.view r.toLoadRect (h.unread w) := by
  have hz : (![0, 0] : Fin S50x128.rank → Nat) = fun _ => 0 := funext fun a => by fin_cases a <;> rfl
  have hcov : ∀ y : S50x128.Idx, ∃ p ∈ [(⟨Rect.unit (s := S50x128) ![0, 0] S50x128.size inb_S50x128_S50x128_0_0, w⟩ : View.Piece (Elt F) S50x128 .f32)], y ∈ p.1.set :=
    fun y => ⟨_, List.mem_singleton_self _, View.mem_set_unit_zero (S := S50x128) hz inb_S50x128_S50x128_0_0 y⟩
  rw [View.readCov_eq_canon_ld m.view _ r hcov, View.canon_unit_zero (S := S50x128) hz inb_S50x128_S50x128_0_0 w, View.readAt_eq_ld, h.read_unread]

set_option maxHeartbeats 1000000 in
/-- PHASE ONE ALONE. From the two input blocks a and g the body stores the block of exponentials into its
    band of the big scratch and the rows of maxima and of sums into row t of the two tables; the inputs, the
    output buffer and the table of factors are not touched. -/
theorem run_phase1 (c : Dev nD) (i : grid0.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S100000x128 .f32) (harg4 : arg4.IsWhole)
    (arg5 : Memref sig .tc .vmem S50x128 .f32) (harg5 : arg5.IsWhole) (arg6 : Memref sig .tc .vmem S50x128 .f32) (harg6 : arg6.IsWhole)
    (arg7 : Memref sig .tc .vmem S50x128 .f32) (harg7 : arg7.IsWhole)
    (hc1 : k0_cond1 i = 1#1) (hc2 : ¬condEq i) (hc3 : ¬k0_cond3 i = 1#1)
    (a g : Vec F S2000x128 .f32) (e : Vec F S100000x128 .f32) (mb pb : Vec F S50x128 .f32)
    (E : Set ℕ) (K : PUnit → sProp 𝕄) :
    iprop(owns (c : Thread nD τ) arg1 fullShare a ∗ owns (c : Thread nD τ) arg2 fullShare g
        ∗ owns (c : Thread nD τ) arg4 fullShare e ∗ owns (c : Thread nD τ) arg5 fullShare mb ∗ owns (c : Thread nD τ) arg6 fullShare pb
        ∗ (iprop(owns (c : Thread nD τ) arg1 fullShare a ∗ owns (c : Thread nD τ) arg2 fullShare g
            ∗ owns (c : Thread nD τ) arg4 fullShare (bandStored arg4 harg4 i hc1 e (k0_pay4 a g))
            ∗ owns (c : Thread nD τ) arg5 fullShare (rowStored arg5 harg5 i hc1 mb (k0_pay5 a g))
            ∗ owns (c : Thread nD τ) arg6 fullShare (rowStored arg6 harg6 i hc1 pb (k0_pay6 a g))) -∗ K ⟨⟩))
      ⊢ wp frame (wpE (defs₀ (F := F)) Variants.none c none) E (cc0_body i arg1 harg1 arg2 harg2 arg3 harg3 arg4 harg4 arg5 harg5 arg6 harg6 arg7 harg7) K := by
  simp only [cc0_body_eq_skeleton]; unfold cc0_body_skel
  unfold owns bandStored rowStored
  iintro ⟨⟨%f0, %hf0, H0⟩, ⟨%f1, %hf1, H1⟩, ⟨%f4, %hf4, H4⟩, ⟨%f5, %hf5, H5⟩, ⟨%f6, %hf6, H6⟩, Hk⟩
  obtain rfl := harg1.eq_unread hf0; obtain rfl := harg2.eq_unread hf1
  obtain rfl := harg4.eq_unread hf4; obtain rfl := harg5.eq_unread hf5; obtain rfl := harg6.eq_unread hf6
  sl_exec (disch := first | exact hc1 | exact hc2 | exact hc3)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H4]
  · iexists _; isplitr; swap; · iexact H4
    ipureintro; rw [readAt_block arg1 harg1 a, readAt_block arg2 harg2 g]
  isplitl [H5]
  · iexists _; isplitr; swap; · iexact H5
    ipureintro; rw [readAt_block arg1 harg1 a, readAt_block arg2 harg2 g]
  iexists _; isplitr; swap; · iexact H6
  ipureintro; rw [readAt_block arg1 harg1 a, readAt_block arg2 harg2 g]

set_option maxHeartbeats 1000000 in
/-- PHASE TWO ALONE. The body loads a band of exponentials and a row of factors and stores their product
    into the output buffer, whole; the scratch buffers are not changed. -/
theorem run_phase2 (c : Dev nD) (i : grid0.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S100000x128 .f32) (harg4 : arg4.IsWhole)
    (arg5 : Memref sig .tc .vmem S50x128 .f32) (harg5 : arg5.IsWhole) (arg6 : Memref sig .tc .vmem S50x128 .f32) (harg6 : arg6.IsWhole)
    (arg7 : Memref sig .tc .vmem S50x128 .f32) (harg7 : arg7.IsWhole)
    (hc1 : ¬k0_cond1 i = 1#1) (hc2 : ¬condEq i) (hc3 : k0_cond3 i = 1#1)
    (o : Vec F S2000x128 .f32) (e : Vec F S100000x128 .f32) (fb : Vec F S50x128 .f32)
    (E : Set ℕ) (K : PUnit → sProp 𝕄) :
    iprop(owns (c : Thread nD τ) arg3 fullShare o ∗ owns (c : Thread nD τ) arg4 fullShare e ∗ owns (c : Thread nD τ) arg7 fullShare fb
        ∗ (iprop(owns (c : Thread nD τ) arg3 fullShare (k0_pay8 (bandLoaded arg4 harg4 i hc3 e) (rowLoaded arg7 harg7 i hc3 fb))
            ∗ owns (c : Thread nD τ) arg4 fullShare e ∗ owns (c : Thread nD τ) arg7 fullShare fb) -∗ K ⟨⟩))
      ⊢ wp frame (wpE (defs₀ (F := F)) Variants.none c none) E (cc0_body i arg1 harg1 arg2 harg2 arg3 harg3 arg4 harg4 arg5 harg5 arg6 harg6 arg7 harg7) K := by
  simp only [cc0_body_eq_skeleton]; unfold cc0_body_skel
  unfold owns bandLoaded rowLoaded
  iintro ⟨⟨%f3, %hf3, H3⟩, ⟨%f4, %hf4, H4⟩, ⟨%f7, %hf7, H7⟩, Hk⟩
  obtain rfl := harg3.eq_unread hf3; obtain rfl := harg4.eq_unread hf4; obtain rfl := harg7.eq_unread hf7
  sl_exec (disch := first | exact hc1 | exact hc2 | exact hc3)
  sl_step
  iapply Hk
  isplitl [H3]
  · iexists _; isplitr; swap; · iexact H3
    ipureintro; exact read_block_stored arg3 harg3 o _
  isplitl [H4]
  · iexists _; isplitr; swap; · iexact H4
    ipureintro; exact harg4.read_unread _
  iexists _; isplitr; swap; · iexact H7
  ipureintro; exact harg7.read_unread _

set_option maxHeartbeats 1000000 in
/-- THE COMBINE STEP, THEN PHASE TWO (point 50, where the row of factors loaded is row 0). From the two
    tables mb and pb the body stores the table of factors, whole; it then loads a band of exponentials and a
    row of the factors just stored and stores their product into the output buffer, whole. -/
theorem run_combine (c : Dev nD) (i : grid0.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S100000x128 .f32) (harg4 : arg4.IsWhole)
    (arg5 : Memref sig .tc .vmem S50x128 .f32) (harg5 : arg5.IsWhole) (arg6 : Memref sig .tc .vmem S50x128 .f32) (harg6 : arg6.IsWhole)
    (arg7 : Memref sig .tc .vmem S50x128 .f32) (harg7 : arg7.IsWhole)
    (hc1 : ¬k0_cond1 i = 1#1) (hc2 : condEq i) (hc3 : k0_cond3 i = 1#1) (ho4 : k0_off4 i = ![0, 0])
    (o : Vec F S2000x128 .f32) (e : Vec F S100000x128 .f32) (mb pb fb : Vec F S50x128 .f32)
    (E : Set ℕ) (K : PUnit → sProp 𝕄) :
    iprop(owns (c : Thread nD τ) arg3 fullShare o ∗ owns (c : Thread nD τ) arg4 fullShare e
        ∗ owns (c : Thread nD τ) arg5 fullShare mb ∗ owns (c : Thread nD τ) arg6 fullShare pb ∗ owns (c : Thread nD τ) arg7 fullShare fb
        ∗ (iprop(owns (c : Thread nD τ) arg3 fullShare (k0_pay8 (bandLoaded arg4 harg4 i hc3 e) (rowLoaded arg7 harg7 i hc3 (k0_pay7 mb pb)))
            ∗ owns (c : Thread nD τ) arg4 fullShare e ∗ owns (c : Thread nD τ) arg5 fullShare mb ∗ owns (c : Thread nD τ) arg6 fullShare pb
            ∗ owns (c : Thread nD τ) arg7 fullShare (k0_pay7 mb pb)) -∗ K ⟨⟩))
      ⊢ wp frame (wpE (defs₀ (F := F)) Variants.none c none) E (cc0_body i arg1 harg1 arg2 harg2 arg3 harg3 arg4 harg4 arg5 harg5 arg6 harg6 arg7 harg7) K := by
  simp only [cc0_body_eq_skeleton]; unfold cc0_body_skel
  unfold owns bandLoaded rowLoaded
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  letI : ClosedOff (k0_off4 i) := ⟨![0, 0], ho4⟩
  sl_exec (disch := first | exact hc1 | exact hc2 | exact hc3)
  sl_step
  sl_unfold_words
  iapply Hk
  isplitl [H3]
  · iexists _; isplitr; swap; · iexact H3
    ipureintro
    rw [readAt_table arg5 harg5 mb, readAt_table arg6 harg6 pb]
    refine (read_block_stored arg3 harg3 o _).trans ?_
    exact congrArg (k0_pay8 _) (readCov_table_stored arg7 harg7 (k0_pay7 mb pb) _)
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  iexists _; isplitr; swap; · iexact H7
  ipureintro
  rw [readAt_table arg5 harg5 mb, readAt_table arg6 harg6 pb]
  exact read_table_stored arg7 harg7 fb _

end Cert.KernelIdeal.Body

end
-- ==== Proof.Data.lean ====
/-
  The proof data of the one pallas_call, its body obligation, the frame run and the frame.

  What the scratch buffers hold is followed chunk by chunk. Chunk j of the transposed view (rows
  2000 j .. 2000 j + 1999) has, as functions of the two input blocks at point j, its block of
  exponentials, its row of maxima and its row of sums. After n points of phase one, bands 0 .. n - 1 of the
  big scratch hold those blocks and rows 0 .. n - 1 of the two tables those rows, whatever the rest holds (it
  is what the launch left there, which nobody names). Point 50 turns the two full tables into the table of
  factors, and from there on the body multiplies band j by row j of that table into output block j.
-/
import proofs.«177340_g81492709474519_cont_9to1c4b_556_9_alg».proof.Proof.Runs
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Names for the buffers -/

/-- The scratch buffers: the exponentials, the table of maxima, the table of sums, the table of factors. -/
abbrev scE : Memref sig .tc .vmem S100000x128 .f32 := Memref.whole cc0_scratch0
abbrev scM : Memref sig .tc .vmem S50x128 .f32 := Memref.whole cc0_scratch1
abbrev scP : Memref sig .tc .vmem S50x128 .f32 := Memref.whole cc0_scratch2
abbrev scF : Memref sig .tc .vmem S50x128 .f32 := Memref.whole cc0_scratch3
theorem hE : (scE).IsWhole := Memref.isWhole_whole _
theorem hM : (scM).IsWhole := Memref.isWhole_whole _
theorem hP : (scP).IsWhole := Memref.isWhole_whole _
theorem hF : (scF).IsWhole := Memref.isWhole_whole _

/-- Each window's current staging buffer at point t. -/
abbrev ms0 (t : Fin cfg0.N) : Memref sig .tc .vmem S2000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2000x128 .f32 := win0_2.stage (cfg0.slots t 2)
abbrev hs2 (t : Fin cfg0.N) : (ms2 t).IsWhole := hstage0_2 ((cfg0.slots t 2).cast nbuf0_2)

/-- What the launch hands the region, with the four scratch buffers as buffers owned at some contents. -/
theorem PhiA_eq (c : Dev nD) :
    (Pipeline.ΦA spec0 c : sProp 𝕄)
      = iprop(iprop((∃ d, owns (c : Thread nD τ) scE fullShare d) ∗ (∃ d, owns (c : Thread nD τ) scM fullShare d)
          ∗ (∃ d, owns (c : Thread nD τ) scP fullShare d) ∗ (∃ d, owns (c : Thread nD τ) scF fullShare d)) ∗ (∃ r, prngReg c r)) := by
  unfold Pipeline.ΦA; rw [scopedRest0_eq]; simp only [scE, scM, scP, scF, owns_whole]; try rfl

/-! ## The chunks -/

theorem N100 : cfg0.N = 100 := N_0

/-- The two input blocks at point t. -/
abbrev blkA (c : Dev nD) (t : Fin cfg0.N) : Vec F S2000x128 .f32 := iblk m c 0 t
abbrev blkG (c : Dev nD) (t : Fin cfg0.N) : Vec F S2000x128 .f32 := iblk m c 1 t

/-- Chunk j's point of phase one. -/
def pt (j : Fin 50) : Fin cfg0.N := ⟨j.val, by have := j.isLt; have := N100; omega⟩
/-- The chunk a point of phase two writes out: t - 50 (and something in range at the other points, where it is not used). -/
def chunkOf (t : Fin cfg0.N) : Fin 50 := ⟨(t.val - 50) % 50, Nat.mod_lt _ (by decide)⟩

/-- Chunk j's exponentials, maxima and sums, as the body computes them from the input blocks at point j. -/
def expChunk (c : Dev nD) (j : Fin 50) : Vec F S2000x128 .f32 := k0_pay4 (blkA m c (pt j)) (blkG m c (pt j))
def maxRow (c : Dev nD) (j : Fin 50) : Vec F S1x128 .f32 := k0_pay5 (blkA m c (pt j)) (blkG m c (pt j))
def sumRow (c : Dev nD) (j : Fin 50) : Vec F S1x128 .f32 := k0_pay6 (blkA m c (pt j)) (blkG m c (pt j))

/-- The two tables once phase one is over: row j is chunk j's row. -/
def maxTable (c : Dev nD) : Vec F S50x128 .f32 := fun y => maxRow m c ⟨(y 0).val, idx2_lt0 y⟩ (ix2 (0 : Fin 1) ⟨(y 1).val, idx2_lt1 y⟩)
def sumTable (c : Dev nD) : Vec F S50x128 .f32 := fun y => sumRow m c ⟨(y 0).val, idx2_lt0 y⟩ (ix2 (0 : Fin 1) ⟨(y 1).val, idx2_lt1 y⟩)
/-- The table of factors the combine step computes from them, and its row j. -/
def factorTable (c : Dev nD) : Vec F S50x128 .f32 := k0_pay7 (maxTable m c) (sumTable m c)
def factorRow (c : Dev nD) (j : Fin 50) : Vec F S1x128 .f32 := fun x => factorTable m c (ix2 j ⟨(x 1).val, idx2_lt1 x⟩)
/-- Output block j: chunk j's exponentials times row j of the factors. -/
def outChunk (c : Dev nD) (j : Fin 50) : Vec F S2000x128 .f32 := k0_pay8 (expChunk m c j) (factorRow m c j)

/-- Entry x of band j, as an index of the big scratch. -/
def bandIdx (j : Fin 50) (x : S2000x128.Idx) : S100000x128.Idx :=
  ix2 (⟨2000 * j.val + (x 0).val, by have := j.isLt; have := idx2_lt0 x; omega⟩ : Fin 100000) (⟨(x 1).val, idx2_lt1 x⟩ : Fin 128)

/-- What is known of the scratch buffers before point n. -/
def Inv (c : Dev nD) (n : ℕ) (e : Vec F S100000x128 .f32) (mb pb fb : Vec F S50x128 .f32) : Prop :=
  (∀ j : Fin 50, j.val < n → ∀ x : S2000x128.Idx, e (bandIdx j x) = expChunk m c j x)
  ∧ (∀ j : Fin 50, j.val < n → ∀ l : Fin 128, mb (ix2 j l) = maxRow m c j (ix2 (0 : Fin 1) l))
  ∧ (∀ j : Fin 50, j.val < n → ∀ l : Fin 128, pb (ix2 j l) = sumRow m c j (ix2 (0 : Fin 1) l))
  ∧ (50 < n → fb = factorTable m c)

/-- The region invariant before point n: the four scratch buffers at contents of which Inv holds, and the
    generator register at some state. -/
def PhiS (c : Dev nD) (n : ℕ) : sProp 𝕄 :=
  iprop(∃ e, ∃ mb, ∃ pb, ∃ fb, ⌜Inv m c n e mb pb fb⌝ ∗ owns (c : Thread nD τ) scE fullShare e ∗ owns (c : Thread nD τ) scM fullShare mb
    ∗ owns (c : Thread nD τ) scP fullShare pb ∗ owns (c : Thread nD τ) scF fullShare fb ∗ (∃ r, prngReg c r))

/-! ## The proof data -/

/-- The arrays as the region finds them; after the body each input buffer at its block and the output buffer
    at the output block of the point's chunk; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outChunk m c (chunkOf t)
  Φ t := PhiS m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outChunk m c (chunkOf t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The invariant is kept -/

/-- Reading the big scratch through its own view is reading its contents. -/
theorem read_writes_nil_E (e : Vec F S100000x128 .f32) (y : S100000x128.Idx) :
    (scE).view.read (Elt F) ((scE).view.writes (Elt F) ((hE).unread e) []) y = e y := by
  rw [View.writes_nil, (hE).read_unread]
theorem read_writes_nil_T (mt : Memref sig .tc .vmem S50x128 .f32) (h : mt.IsWhole) (x : Vec F S50x128 .f32) (y : S50x128.Idx) :
    mt.view.read (Elt F) (mt.view.writes (Elt F) (h.unread x) []) y = x y := by
  rw [View.writes_nil, h.read_unread]

/-- A point of phase one extends what is known by its own chunk. -/
theorem inv_phase1 (c : Dev nD) (t : Fin cfg0.N) (h1 : t.val < 50) (hc1 : k0_cond1 (grid0.coords t) = 1#1)
    (e : Vec F S100000x128 .f32) (mb pb fb : Vec F S50x128 .f32) (hI : Inv m c t.val e mb pb fb) :
    Inv m c (t.val + 1)
      (bandStored scE hE (grid0.coords t) hc1 e (k0_pay4 (blkA m c t) (blkG m c t)))
      (rowStored scM hM (grid0.coords t) hc1 mb (k0_pay5 (blkA m c t) (blkG m c t)))
      (rowStored scP hP (grid0.coords t) hc1 pb (k0_pay6 (blkA m c t) (blkG m c t))) fb := by
  obtain ⟨hIe, hIm, hIp, -⟩ := hI
  refine ⟨fun j hj x => ?_, fun j hj l => ?_, fun j hj l => ?_, fun h => by omega⟩
  · unfold bandStored
    by_cases hjt : j.val = t.val
    · have hpt : pt j = t := Fin.ext hjt
      rw [View.read_writes_cons_rows_of_mem (scE).view _ (k0_off1_inb _ hc1) _ [] (bandIdx j x) x (hoff1 t h1)
        (by show 2000 * j.val + (x 0).val = 2000 * t.val + (x 0).val; rw [hjt]) rfl]
      unfold expChunk; rw [hpt]
    · rw [View.read_writes_cons_rows_of_not_mem (scE).view _ (k0_off1_inb _ hc1) _ [] (bandIdx j x) (hoff1 t h1) rfl
        (Or.inl (by show 2000 * j.val + (x 0).val < 2000 * t.val; have := idx2_lt0 x; omega)), read_writes_nil_E]
      exact hIe j (by omega) x
  · unfold rowStored
    by_cases hjt : j.val = t.val
    · have hpt : pt j = t := Fin.ext hjt
      rw [View.read_writes_cons_rows_of_mem (scM).view _ (k0_off2_inb _ hc1) _ [] (ix2 j l) (ix2 (0 : Fin 1) l) (hoff2 t h1)
        (by show j.val = t.val + 0; omega) rfl]
      unfold maxRow; rw [hpt]
    · rw [View.read_writes_cons_rows_of_not_mem (scM).view _ (k0_off2_inb _ hc1) _ [] (ix2 j l) (hoff2 t h1) rfl
        (Or.inl (by show j.val < t.val; omega)), read_writes_nil_T]
      exact hIm j (by omega) l
  · unfold rowStored
    by_cases hjt : j.val = t.val
    · have hpt : pt j = t := Fin.ext hjt
      rw [View.read_writes_cons_rows_of_mem (scP).view _ (k0_off2_inb _ hc1) _ [] (ix2 j l) (ix2 (0 : Fin 1) l) (hoff2 t h1)
        (by show j.val = t.val + 0; omega) rfl]
      unfold sumRow; rw [hpt]
    · rw [View.read_writes_cons_rows_of_not_mem (scP).view _ (k0_off2_inb _ hc1) _ [] (ix2 j l) (hoff2 t h1) rfl
        (Or.inl (by show j.val < t.val; omega)), read_writes_nil_T]
      exact hIp j (by omega) l

/-- Once phase one is over the two tables are the full tables. -/
theorem tables_of_inv (c : Dev nD) (n : ℕ) (hn : 50 ≤ n) (e : Vec F S100000x128 .f32) (mb pb fb : Vec F S50x128 .f32)
    (hI : Inv m c n e mb pb fb) : mb = maxTable m c ∧ pb = sumTable m c := by
  obtain ⟨-, hIm, hIp, -⟩ := hI
  constructor
  · funext y
    have hy : y = ix2 (⟨(y 0).val, idx2_lt0 y⟩ : Fin 50) (⟨(y 1).val, idx2_lt1 y⟩ : Fin 128) := eq_ix2 y
    rw [hy]; exact hIm _ (by have := idx2_lt0 y; show (y 0).val < n; omega) _
  · funext y
    have hy : y = ix2 (⟨(y 0).val, idx2_lt0 y⟩ : Fin 50) (⟨(y 1).val, idx2_lt1 y⟩ : Fin 128) := eq_ix2 y
    rw [hy]; exact hIp _ (by have := idx2_lt0 y; show (y 0).val < n; omega) _

/-- The band a point of phase two loads is its chunk's exponentials. -/
theorem bandLoaded_eq (c : Dev nD) (t : Fin cfg0.N) (h3 : 50 ≤ t.val) (hc3 : k0_cond3 (grid0.coords t) = 1#1)
    (n : ℕ) (hn : 50 ≤ n) (e : Vec F S100000x128 .f32) (mb pb fb : Vec F S50x128 .f32) (hI : Inv m c n e mb pb fb) :
    bandLoaded scE hE (grid0.coords t) hc3 e = expChunk m c (chunkOf t) := by
  have hN : t.val < 100 := lt_of_lt_of_eq t.isLt N100
  funext x
  unfold bandLoaded
  rw [View.readAt_eq_ld, (hE).read_unread]
  refine Eq.trans (congrArg e (?_ : _ = bandIdx (chunkOf t) x)) (hI.1 (chunkOf t) (by show (t.val - 50) % 50 < n; omega) x)
  funext a; apply Fin.ext
  have ho := hoff3 t h3
  match a with
  | ⟨0, _⟩ =>
    show k0_off3 (grid0.coords t) 0 + 1 * (x 0).val = 2000 * ((t.val - 50) % 50) + (x 0).val
    rw [ho]; show 2000 * (t.val - 50) + 1 * (x 0).val = _; omega
  | ⟨1, _⟩ =>
    show k0_off3 (grid0.coords t) 1 + 1 * (x 1).val = (x 1).val
    rw [ho]; show 0 + 1 * (x 1).val = _; omega

/-- The row a point of phase two loads from a table is the table's row of its chunk. -/
theorem rowLoaded_eq (t : Fin cfg0.N) (h3 : 50 ≤ t.val) (hc3 : k0_cond3 (grid0.coords t) = 1#1)
    (mt : Memref sig .tc .vmem S50x128 .f32) (h : mt.IsWhole) (fb : Vec F S50x128 .f32) :
    rowLoaded mt h (grid0.coords t) hc3 fb = fun x => fb (ix2 (chunkOf t) ⟨(x 1).val, idx2_lt1 x⟩) := by
  have hN : t.val < 100 := lt_of_lt_of_eq t.isLt N100
  funext x
  unfold rowLoaded
  rw [View.readAt_eq_ld, h.read_unread]
  refine congrArg fb ?_
  funext a; apply Fin.ext
  have ho := hoff4 t h3
  match a with
  | ⟨0, _⟩ =>
    show k0_off4 (grid0.coords t) 0 + 1 * (x 0).val = (t.val - 50) % 50
    rw [ho]; show (t.val - 50) + 1 * (x 0).val = _; have := idx2_lt0 x; omega
  | ⟨1, _⟩ =>
    show k0_off4 (grid0.coords t) 1 + 1 * (x 1).val = (x 1).val
    rw [ho]; show 0 + 1 * (x 1).val = _; omega

/-- What a point from 50 on leaves in the output buffer is its chunk's output block, the table of factors
    being the one computed from the full tables. -/
theorem out_eq (c : Dev nD) (t : Fin cfg0.N) (h3 : 50 ≤ t.val) (hc3 : k0_cond3 (grid0.coords t) = 1#1)
    (e : Vec F S100000x128 .f32) (mb pb fb : Vec F S50x128 .f32) (hI : Inv m c t.val e mb pb fb)
    (ft : Vec F S50x128 .f32) (hft : ft = factorTable m c) :
    k0_pay8 (bandLoaded scE hE (grid0.coords t) hc3 e) (rowLoaded scF hF (grid0.coords t) hc3 ft) = outChunk m c (chunkOf t) := by
  rw [bandLoaded_eq m c t h3 hc3 t.val h3 e mb pb fb hI, rowLoaded_eq t h3 hc3 scF hF ft, hft]
  rfl

/-! ## The body obligation -/

set_option maxHeartbeats 4000000 in
/-- The body at any point. Below 50 it is phase one: the invariant hands over the scratch buffers, the run
    stores the point's chunk, and the invariant takes them back with that chunk known; the output buffer is
    handed back untouched. At 50 the two tables are full, the run turns them into the table of factors and
    writes output block 0. Above 50 the run writes output block t - 50 from the band and the row it loads. -/
theorem sound_body (c : Dev nD) (t : Fin cfg0.N) :
    iprop((dats m 0 c).Φ t.castSucc ∗ (dats m 0 c).owesAt () t.castSucc
        ∗ (∃ d, owns (c : Thread nD τ) (ms0 t) fullShare ((dats m 0 c).before 0 t d))
        ∗ (∃ d, owns (c : Thread nD τ) (ms1 t) fullShare ((dats m 0 c).before 1 t d))
        ∗ (∃ d, owns (c : Thread nD τ) (ms2 t) fullShare ((dats m 0 c).before 2 t d)))
      ⊢ wp frame (wpE (defs₀ (F := F)) Variants.none c none) Set.univ (bodyAt0 t) (fun _ =>
          iprop((dats m 0 c).Φ t.succ ∗ (dats m 0 c).owesAt () t.succ
            ∗ (dats m 0 c).leavesExact 0 t ∗ (dats m 0 c).leavesExact 1 t ∗ (dats m 0 c).leavesExact 2 t)) := by
  have hN : t.val < 100 := lt_of_lt_of_eq t.isLt N100
  simp only [before0, before1]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (ms0 t) fullShare ((dats m 0 c).after 0 t) from by
        unfold Dat.leavesExact; rw [live0 t], after0,
      show (dats m 0 c).leavesExact 1 t = owns (c : Thread nD τ) (ms1 t) fullShare ((dats m 0 c).after 1 t) from by
        unfold Dat.leavesExact; rw [live1 t], after1]
  by_cases h1 : t.val < 50
  · have hc1 := (hcond1 t).mpr h1
    have hc2 : ¬condEq (grid0.coords t) := fun h => by have := (hcondEq t).mp h; omega
    have hc3 : ¬k0_cond3 (grid0.coords t) = 1#1 := fun h => by have := (hcond3 t).mp h; omega
    rw [Dat.leavesExact_idle (dats m 0 c) 2 t (idle2 t h1) (noFlush2 t h1)]
    unfold PhiS
    iintro ⟨⟨%e, %mb, %pb, %fb, %hI, HE, HM, HP, HF, Hg⟩, Ho, ⟨%d0, H0⟩, ⟨%d1, H1⟩, ⟨%d2, H2⟩⟩
    iapply (run_phase1 c (grid0.coords t) (ms0 t) (hs0 t) (ms1 t) (hs1 t) (ms2 t) (hs2 t) scE hE scM hM scP hP scF hF
      hc1 hc2 hc3 (blkA m c t) (blkG m c t) e mb pb Set.univ _)
    isplitl [H0]; · iexact H0
    isplitl [H1]; · iexact H1
    isplitl [HE]; · iexact HE
    isplitl [HM]; · iexact HM
    isplitl [HP]; · iexact HP
    iintro ⟨H0, H1, HE, HM, HP⟩
    isplitl [HE HM HP HF Hg]
    · iexists _; iexists _; iexists _; iexists _
      isplitr; · ipureintro; exact inv_phase1 m c t h1 hc1 e mb pb fb hI
      isplitl [HE]; · iexact HE
      isplitl [HM]; · iexact HM
      isplitl [HP]; · iexact HP
      isplitl [HF]; · iexact HF
      iexact Hg
    isplitl [Ho]; · iexact Ho
    isplitl [H0]; · iexact H0
    isplitl [H1]; · iexact H1
    iexists _; iexact H2
  · have h3 : 50 ≤ t.val := by omega
    have hc1 : ¬k0_cond1 (grid0.coords t) = 1#1 := fun h => by have := (hcond1 t).mp h; omega
    have hc3 := (hcond3 t).mpr h3
    rw [show (dats m 0 c).leavesExact 2 t = owns (c : Thread nD τ) (ms2 t) fullShare ((dats m 0 c).after 2 t) from by
          unfold Dat.leavesExact; rw [live2 t h3], after2]
    unfold PhiS
    iintro ⟨⟨%e, %mb, %pb, %fb, %hI, HE, HM, HP, HF, Hg⟩, Ho, ⟨%d0, H0⟩, ⟨%d1, H1⟩, ⟨%d2, H2⟩⟩
    obtain ⟨hmb, hpb⟩ := tables_of_inv m c t.val h3 e mb pb fb hI
    by_cases h50 : t.val = 50
    · have hc2 := (hcondEq t).mpr h50
      have ho4 : k0_off4 (grid0.coords t) = ![0, 0] := by rw [hoff4 t h3, h50]
      have hft : k0_pay7 mb pb = factorTable m c := by rw [hmb, hpb]; rfl
      iapply (run_combine c (grid0.coords t) (ms0 t) (hs0 t) (ms1 t) (hs1 t) (ms2 t) (hs2 t) scE hE scM hM scP hP scF hF
        hc1 hc2 hc3 ho4 _ e mb pb fb Set.univ _)
      isplitl [H2]; · iexact H2
      isplitl [HE]; · iexact HE
      isplitl [HM]; · iexact HM
      isplitl [HP]; · iexact HP
      isplitl [HF]; · iexact HF
      iintro ⟨H2, HE, HM, HP, HF⟩
      rw [out_eq m c t h3 hc3 e mb pb fb hI (k0_pay7 mb pb) hft]
      isplitl [HE HM HP HF Hg]
      · iexists e; iexists mb; iexists pb; iexists (k0_pay7 mb pb)
        isplitr
        · ipureintro
          exact ⟨fun j hj x => hI.1 j (by have := j.isLt; omega) x, fun j hj l => hI.2.1 j (by have := j.isLt; omega) l,
            fun j hj l => hI.2.2.1 j (by have := j.isLt; omega) l, fun _ => hft⟩
        isplitl [HE]; · iexact HE
        isplitl [HM]; · iexact HM
        isplitl [HP]; · iexact HP
        isplitl [HF]; · iexact HF
        iexact Hg
      isplitl [Ho]; · iexact Ho
      isplitl [H0]; · iexact H0
      isplitl [H1]; · iexact H1
      iexact H2
    · have hc2 : ¬condEq (grid0.coords t) := fun h => h50 ((hcondEq t).mp h)
      have hft : fb = factorTable m c := hI.2.2.2 (by omega)
      iapply (run_phase2 c (grid0.coords t) (ms0 t) (hs0 t) (ms1 t) (hs1 t) (ms2 t) (hs2 t) scE hE scM hM scP hP scF hF
        hc1 hc2 hc3 _ e fb Set.univ _)
      isplitl [H2]; · iexact H2
      isplitl [HE]; · iexact HE
      isplitl [HF]; · iexact HF
      iintro ⟨H2, HE, HF⟩
      rw [out_eq m c t h3 hc3 e mb pb fb hI fb hft]
      isplitl [HE HM HP HF Hg]
      · iexists e; iexists mb; iexists pb; iexists fb
        isplitr
        · ipureintro
          exact ⟨fun j hj x => hI.1 j (by have := j.isLt; omega) x, fun j hj l => hI.2.1 j (by have := j.isLt; omega) l,
            fun j hj l => hI.2.2.1 j (by have := j.isLt; omega) l, fun _ => hft⟩
        isplitl [HE]; · iexact HE
        isplitl [HM]; · iexact HM
        isplitl [HP]; · iexact HP
        isplitl [HF]; · iexact HF
        iexact Hg
      isplitl [Ho]; · iexact Ho
      isplitl [H0]; · iexact H0
      isplitl [H1]; · iexact H1
      iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is known yet. -/
theorem hin (c : Dev nD) : Pipeline.ΦA spec0 c ⊢ (dats m 0 c).Φ 0 := by
  rw [show (dats m 0 c).Φ 0 = PhiS m c 0 from rfl, PhiA_eq]; unfold PhiS
  iintro ⟨⟨⟨%e, HE⟩, ⟨%mb, HM⟩, ⟨%pb, HP⟩, ⟨%fb, HF⟩⟩, Hg⟩
  iexists e; iexists mb; iexists pb; iexists fb
  isplitr
  · ipureintro
    exact ⟨fun j hj => absurd hj (Nat.not_lt_zero _), fun j hj => absurd hj (Nat.not_lt_zero _),
      fun j hj => absurd hj (Nat.not_lt_zero _), fun h => absurd h (by decide)⟩
  isplitl [HE]; · iexact HE
  isplitl [HM]; · iexact HM
  isplitl [HP]; · iexact HP
  isplitl [HF]; · iexact HF
  iexact Hg

/-- After the last point what is known of the scratch buffers is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]; unfold PhiS
  iintro ⟨%e, %mb, %pb, %fb, -, HE, HM, HP, HF, Hg⟩
  isplitl [HE HM HP HF]
  · isplitl [HE]; · iexists _; iexact HE
    isplitl [HM]; · iexists _; iexact HM
    isplitl [HP]; · iexists _; iexact HP
    iexists _; iexact HF
  iexact Hg

/-! ## The run and the frame -/

set_option backward.isDefEq.respectTransparency.types false in
/-- From any memory with zero counters every weakly fair execution of the program terminates, and in every final
    state each array of the pipeline holds what the write-backs of the proof data leave and every other unscoped
    buffer what the lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  Softmax of one row of 100000 extended reals, written two ways.

  The row is cut into 50 chunks of 2000 entries: entry r of chunk i is entry 2000 i + r of the row.

  Chunked form: each chunk i has its own maximum (chunkMax), its entries' exponentials taken
  relative to that maximum (chunkExp) and their sum (chunkSum); the row's maximum is the
  maximum of the chunk maxima (rowMax); chunk i is rescaled by exp (chunkMax i - rowMax)
  (chunkScale), the rescaled sums add up to the row's normaliser (total), and an entry's result is
  chunkExp times (chunkScale times the reciprocal of total).

  Flat form: exp (X k - max X) divided by the sum over the row of those exponentials.

  Every maximum is folded from -infinity (the bottom of the extended reals), every sum is a finite
  sum, and exp and the quotient are the exact ones on the extended reals.
-/
import Idealize.ShloMosaic.PureOps.Ideal

noncomputable section

open scoped BigOperators

namespace Cert.GumbelSoftmax

open Idealize.ShloMosaic

/-- The maximum of a finite family, folded from -infinity. -/
def fmax {n : Nat} (f : Fin n → EReal) : EReal := (Finset.univ : Finset (Fin n)).fold max ⊥ f

/-! ## Chunked form -/

/-- The maximum of chunk i. -/
def chunkMax (x : Fin 50 → Fin 2000 → EReal) (i : Fin 50) : EReal := fmax (x i)

/-- exp of an entry less its chunk's maximum. -/
def chunkExp (x : Fin 50 → Fin 2000 → EReal) (i : Fin 50) (r : Fin 2000) : EReal :=
  Ideal.exp (x i r - chunkMax x i)

/-- The sum of a chunk's exponentials. -/
def chunkSum (x : Fin 50 → Fin 2000 → EReal) (i : Fin 50) : EReal := ∑ r : Fin 2000, chunkExp x i r

/-- The maximum of the chunk maxima. -/
def rowMax (x : Fin 50 → Fin 2000 → EReal) : EReal := fmax (chunkMax x)

/-- What brings chunk i's exponentials from its own maximum to the row's. -/
def chunkScale (x : Fin 50 → Fin 2000 → EReal) (i : Fin 50) : EReal := Ideal.exp (chunkMax x i - rowMax x)

/-- The row's normaliser, from the rescaled chunk sums. -/
def total (x : Fin 50 → Fin 2000 → EReal) : EReal := ∑ i : Fin 50, chunkScale x i * chunkSum x i

/-- Chunk i's factor: its rescaling times the reciprocal of the normaliser. -/
def chunkFactor (x : Fin 50 → Fin 2000 → EReal) (i : Fin 50) : EReal := chunkScale x i * Ideal.div 1 (total x)

/-- The chunked softmax at entry r of chunk i. -/
def chunked (x : Fin 50 → Fin 2000 → EReal) (i : Fin 50) (r : Fin 2000) : EReal :=
  chunkExp x i r * chunkFactor x i

/-! ## Flat form -/

/-- exp of an entry less the row's maximum (the maximum once more joined with -infinity). -/
def flatExp (X : Fin 100000 → EReal) (k : Fin 100000) : EReal := Ideal.exp (X k - max ⊥ (fmax X))

/-- The flat softmax at entry k: the sum starts from zero. -/
def flat (X : Fin 100000 → EReal) (k : Fin 100000) : EReal :=
  Ideal.div (flatExp X k) (0 + ∑ k' : Fin 100000, flatExp X k')

/-- Entry r of chunk i as an entry of the row. -/
def flatIdx (i : Fin 50) (r : Fin 2000) : Fin 100000 := ⟨2000 * i.val + r.val, by omega⟩

end Cert.GumbelSoftmax

end
-- ==== Proof.Payloads.lean ====
/-
  What the kernel body's stores hold, entry by entry, as functions of the values the body loaded.

  Phase one, from the two input blocks a and g (2000 rows of 128 lanes): with y = a + g,
  the exponentials exp (y - columnwise maximum of y), the row of maxima, and the row of the
  exponentials' sums. The combine step, from the 50 rows of maxima mb and of sums pb: per chunk
  its rescaling times the reciprocal of the rescaled sums' total. Phase two: a block of exponentials
  times one row of factors.
-/
import proofs.«177340_g81492709474519_cont_9to1c4b_556_9_alg».proof.Proof.Gen.KernelIdeal.Skeleton
import proofs.«177340_g81492709474519_cont_9to1c4b_556_9_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx Cert.GumbelSoftmax

/-- Lane b of the sum of two blocks, as a family over the block's 2000 rows. -/
def lane (a g : Vec Ideal S2000x128 .f32) (b : Fin 128) (r : Fin 2000) : EReal := a (ix2 r b) + g (ix2 r b)

/-- The reduced index b with row k put back is (k, b). -/
private theorem lift_row {m n : Nat} (h : (⟨2, ![m, n]⟩ : Shape).Reduces [0] (⟨1, ![n]⟩ : Shape)) (b : Fin n) (k : Fin m) :
    h.lift (ix1 b) k = ix2 k b := by
  funext c
  apply Fin.ext
  match c with
  | ⟨0, _⟩ => rfl
  | ⟨1, _⟩ => rfl

/-- The pattern of -infinity is the bottom of the extended reals. -/
private theorem ofBits_negInf : Ideal.ofBits .f32 0xFF800000#32 = (⊥ : EReal) := by
  simp [Ideal.ofBits, Ideal.ieee]

/-- The pattern of 1.0 is the extended real one. -/
private theorem ofBits_one : Ideal.ofBits .f32 0x3F800000#32 = (1 : EReal) := by
  simp [Ideal.ofBits, Ideal.ieee]
  rw [← EReal.coe_mul]
  norm_num

/-- The maximum over the rows, from -infinity, read at lane b. -/
private theorem maxCol {m n : Nat} (v : FVec Ideal ⟨2, ![m, n]⟩ .f32) (h : (⟨2, ![m, n]⟩ : Shape).Reduces [0] (⟨1, ![n]⟩ : Shape))
    (hφ : FKind.Formats .f32) (hacc : (0xFF800000#32 : BitVec 32) = FKind.maximumf.neutral .f32 hφ) (b : Fin n) :
    multiReduction (F := Ideal) .maximumf [0] ⟨1, ![n]⟩ v 0xFF800000#32 h hφ hacc (ix1 b) = fmax (fun r : Fin m => v (ix2 r b)) := by
  refine (Ideal.multiReduction_maximumf_single v _ h hφ hacc (ix1 b)).trans ?_
  have hf : (v ∘ h.lift (ix1 b)) = fun r : Fin m => v (ix2 r b) := funext fun k => congrArg v (lift_row h b k)
  rw [hf]
  show (Finset.univ : Finset (Fin m)).fold max (Ideal.ofBits .f32 0xFF800000#32) _ = _
  rw [ofBits_negInf]
  rfl

/-- The sum over the rows, read at lane b. -/
private theorem sumCol {m n : Nat} (v : FVec Ideal ⟨2, ![m, n]⟩ .f32) (h : (⟨2, ![m, n]⟩ : Shape).Reduces [0] (⟨1, ![n]⟩ : Shape))
    (hφ : FKind.Formats .f32) (hacc : (0x00000000#32 : BitVec 32) = FKind.add.neutral .f32 hφ) (b : Fin n) :
    multiReduction (F := Ideal) .add [0] ⟨1, ![n]⟩ v 0x00000000#32 h hφ hacc (ix1 b) = ∑ r : Fin m, v (ix2 r b) := by
  refine (Ideal.multiReduction_add_single v _ h hφ hacc (ix1 b)).trans ?_
  exact Finset.sum_congr rfl fun k _ => congrArg v (lift_row h b k)

/-- The sum of the two blocks at an entry. -/
private theorem pay1_apply (a g : Vec Ideal S2000x128 .f32) (r : Fin 2000) (b : Fin 128) :
    k0_pay1 (F := Ideal) a g (ix2 r b) = lane a g b r := by
  unfold k0_pay1 lane
  simp only [shapeCast_self]
  rfl

/-- The row of lane maxima, at its one row. -/
private theorem pay2_apply (a g : Vec Ideal S2000x128 .f32) (u : Fin 1) (b : Fin 128) :
    k0_pay2 (F := Ideal) a g (ix2 u b) = fmax (lane a g b) := by
  unfold k0_pay2
  refine (shapeCast_a_1a_apply _ _ u b).trans ?_
  refine (maxCol (k0_pay1 (F := Ideal) a g) _ _ _ b).trans ?_
  exact congrArg fmax (funext fun r => pay1_apply a g r b)

/-- The exponentials at an entry. -/
private theorem pay3_apply (a g : Vec Ideal S2000x128 .f32) (r : Fin 2000) (b : Fin 128) :
    k0_pay3 (F := Ideal) a g (ix2 r b) = Ideal.exp (lane a g b r - fmax (lane a g b)) := by
  unfold k0_pay3
  show Ideal.exp (k0_pay1 (F := Ideal) a g (ix2 r b) - broadcastTo S2000x128 (k0_pay2 (F := Ideal) a g) broadcasts_S1x128_S2000x128 (ix2 r b)) = _
  rw [pay1_apply]
  refine congrArg (fun t => Ideal.exp (lane a g b r - t)) ?_
  exact (broadcastTo_1b_ab_apply _ _ r b).trans (pay2_apply a g 0 b)

/-- The block of exponentials: exp of an entry less its lane's maximum over the block. -/
theorem expBlock_apply (a g : Vec Ideal S2000x128 .f32) (r : Fin 2000) (b : Fin 128) :
    k0_pay4 (F := Ideal) a g (ix2 r b) = Ideal.exp (lane a g b r - fmax (lane a g b)) := by
  unfold k0_pay4
  exact (congrFun (shapeCast_self _ _) (ix2 r b)).trans (pay3_apply a g r b)

/-- The row of maxima. -/
theorem maxRow_apply (a g : Vec Ideal S2000x128 .f32) (b : Fin 128) :
    k0_pay5 (F := Ideal) a g (ix2 (0 : Fin 1) b) = fmax (lane a g b) := by
  unfold k0_pay5
  exact (congrFun (shapeCast_self _ _) (ix2 (0 : Fin 1) b)).trans (pay2_apply a g 0 b)

/-- The row of the exponentials' sums. -/
theorem sumRow_apply (a g : Vec Ideal S2000x128 .f32) (b : Fin 128) :
    k0_pay6 (F := Ideal) a g (ix2 (0 : Fin 1) b)
      = ∑ r : Fin 2000, Ideal.exp (lane a g b r - fmax (lane a g b)) := by
  unfold k0_pay6
  refine (congrFun (shapeCast_self _ _) (ix2 (0 : Fin 1) b)).trans ?_
  refine (shapeCast_a_1a_apply _ _ (0 : Fin 1) b).trans ?_
  refine (sumCol (k0_pay3 (F := Ideal) a g) _ _ _ b).trans ?_
  exact Finset.sum_congr rfl fun r _ => pay3_apply a g r b

/-- The combine step's block of rescalings: exp of a chunk maximum less the lane's maximum over the chunks. -/
private def scaleBlk (mb : Vec Ideal S50x128 .f32) : FVec Ideal S50x128 .f32 :=
  exp (subf mb (broadcastTo S50x128
    (shapeCast S1x128 (multiReduction (F := Ideal) .maximumf [0] S128 mb 0xFF800000#32 reduces_S50x128_S128 (.inl rfl) rfl)
      shapeCasts_S128_S1x128) broadcasts_S1x128_S50x128))

private theorem scaleBlk_apply (mb : Vec Ideal S50x128 .f32) (i : Fin 50) (b : Fin 128) :
    scaleBlk mb (ix2 i b) = Ideal.exp (mb (ix2 i b) - fmax (fun i' => mb (ix2 i' b))) := by
  unfold scaleBlk
  show Ideal.exp (mb (ix2 i b) - broadcastTo S50x128 _ broadcasts_S1x128_S50x128 (ix2 i b)) = _
  refine congrArg (fun t => Ideal.exp (mb (ix2 i b) - t)) ?_
  refine (broadcastTo_1b_ab_apply _ _ i b).trans ?_
  refine (shapeCast_a_1a_apply _ _ (0 : Fin 1) b).trans ?_
  exact maxCol mb _ _ _ b

/-- The combine step's factors, from the 50 rows of maxima and of sums. -/
theorem factor_apply (mb pb : Vec Ideal S50x128 .f32) (i : Fin 50) (b : Fin 128) :
    k0_pay7 (F := Ideal) mb pb (ix2 i b)
      = Ideal.exp (mb (ix2 i b) - fmax (fun i' => mb (ix2 i' b)))
        * Ideal.div 1 (∑ i' : Fin 50, Ideal.exp (mb (ix2 i' b) - fmax (fun i'' => mb (ix2 i'' b))) * pb (ix2 i' b)) := by
  unfold k0_pay7
  refine (congrFun (shapeCast_self _ _) (ix2 i b)).trans ?_
  show scaleBlk mb (ix2 i b)
      * broadcastTo S50x128
          (divf (broadcast S1x128 (Ideal.ofBits .f32 0x3F800000#32))
            (shapeCast S1x128 (multiReduction (F := Ideal) .add [0] S128 (mulf (scaleBlk mb) pb) 0x00000000#32 reduces_S50x128_S128 (.inl rfl) rfl)
              shapeCasts_S128_S1x128)) broadcasts_S1x128_S50x128 (ix2 i b) = _
  rw [scaleBlk_apply]
  refine congrArg (fun t => Ideal.exp (mb (ix2 i b) - fmax (fun i' => mb (ix2 i' b))) * t) ?_
  refine (broadcastTo_1b_ab_apply _ _ i b).trans ?_
  show Ideal.div (Ideal.ofBits .f32 0x3F800000#32) (shapeCast S1x128 _ shapeCasts_S128_S1x128 (ix2 (0 : Fin 1) b)) = _
  rw [ofBits_one]
  refine congrArg (Ideal.div 1) ?_
  refine (shapeCast_a_1a_apply _ _ (0 : Fin 1) b).trans ?_
  refine (sumCol (mulf (scaleBlk mb) pb) _ _ _ b).trans ?_
  refine Finset.sum_congr rfl fun i' _ => ?_
  show scaleBlk mb (ix2 i' b) * pb (ix2 i' b) = _
  rw [scaleBlk_apply]

/-- Phase two's block: exponentials times the chunk's row of factors. -/
theorem outBlock_apply (e : Vec Ideal S2000x128 .f32) (f : Vec Ideal S1x128 .f32) (r : Fin 2000) (b : Fin 128) :
    k0_pay8 (F := Ideal) e f (ix2 r b) = e (ix2 r b) * f (ix2 (0 : Fin 1) b) := by
  unfold k0_pay8
  show e (ix2 r b) * broadcastTo S2000x128 f broadcasts_S1x128_S2000x128 (ix2 r b) = _
  exact congrArg (fun t => e (ix2 r b) * t) (broadcastTo_1b_ab_apply _ _ r b)

end Cert.KernelIdeal.Payloads

end
-- ==== Proof.Law.lean ====
/-
  The chunked softmax of a row of REAL numbers is the flat softmax of the same row.
-/
import proofs.«177340_g81492709474519_cont_9to1c4b_556_9_alg».proof.Proof.Spec

noncomputable section

open scoped BigOperators

namespace Cert.GumbelSoftmax

open Idealize.ShloMosaic

/-- The fold of max from the bottom is the supremum of the family. -/
private theorem fmax_eq_iSup {n : Nat} (f : Fin n → EReal) : fmax f = ⨆ k, f k := by
  unfold fmax
  rw [← Finset.sup_univ_eq_iSup]
  rfl

/-- A nonempty finite family of reals has a real supremum in the extended reals. -/
private theorem iSup_coe_real {ι : Type*} [Finite ι] [Nonempty ι] (f : ι → ℝ) :
    ∃ m : ℝ, (⨆ k, (f k : EReal)) = (m : EReal) := by
  obtain ⟨k0, hk0⟩ := Finite.exists_max f
  refine ⟨f k0, le_antisymm (iSup_le fun k => ?_) (le_iSup (fun k => (f k : EReal)) k0)⟩
  exact_mod_cast hk0 k

/-- A finite sum of coerced reals is the coerced sum. -/
private theorem coe_sum {ι : Type*} (s : Finset ι) (f : ι → ℝ) :
    (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- Entry r of chunk i, over all chunks and entries, lists the row once. -/
private theorem flatIdx_bijective :
    Function.Bijective (fun p : Fin 50 × Fin 2000 => flatIdx p.1 p.2) := by
  constructor
  · rintro ⟨i, r⟩ ⟨i', r'⟩ h
    have h' : 2000 * i.val + r.val = 2000 * i'.val + r'.val := congrArg Fin.val h
    have hi : i.val = i'.val := by omega
    have hr : r.val = r'.val := by omega
    exact Prod.ext (Fin.ext hi) (Fin.ext hr)
  · intro k
    refine ⟨(⟨k.val / 2000, by omega⟩, ⟨k.val % 2000, by omega⟩), Fin.ext ?_⟩
    show 2000 * (k.val / 2000) + k.val % 2000 = k.val
    omega

/-- For a row of reals, cut into 50 chunks of 2000: the chunked form at entry r of chunk i is the flat
    form at entry 2000 i + r. -/
theorem chunked_eq_flat (x : Fin 50 → Fin 2000 → ℝ) (X : Fin 100000 → EReal)
    (hX : ∀ i r, X (flatIdx i r) = (x i r : EReal)) (i : Fin 50) (r : Fin 2000) :
    chunked (fun i r => (x i r : EReal)) i r = flat X (flatIdx i r) := by
  -- each chunk's maximum is a real m i, and so is the maximum M of those
  have hm : ∀ i, ∃ m : ℝ, fmax (fun r => (x i r : EReal)) = (m : EReal) := fun i => by
    rw [fmax_eq_iSup]; exact iSup_coe_real _
  choose m hm using hm
  obtain ⟨M, hM⟩ : ∃ M : ℝ, fmax (fun i => (m i : EReal)) = (M : EReal) := by
    rw [fmax_eq_iSup]; exact iSup_coe_real _
  have hcm : ∀ i, chunkMax (fun i r => (x i r : EReal)) i = (m i : EReal) := fun i => hm i
  have hrm : rowMax (fun i r => (x i r : EReal)) = (M : EReal) := by
    unfold rowMax
    rw [funext hcm, hM]
  -- the row's maximum is the maximum of the chunk maxima: the same M
  have hfX : fmax X = (M : EReal) := by
    rw [← hM, fmax_eq_iSup, fmax_eq_iSup, ← flatIdx_bijective.surjective.iSup_comp, iSup_prod]
    refine iSup_congr fun i => ?_
    rw [← hm i, fmax_eq_iSup]
    exact iSup_congr fun r => hX i r
  -- every exponential, sum and scale is then a coerced real
  have hce : ∀ i r, chunkExp (fun i r => (x i r : EReal)) i r
      = ((Real.exp (x i r - m i) : ℝ) : EReal) := fun i r => by
    unfold chunkExp; rw [hcm, ← EReal.coe_sub, Ideal.exp_coe]
  have hcs : ∀ i, chunkSum (fun i r => (x i r : EReal)) i
      = ((∑ r, Real.exp (x i r - m i) : ℝ) : EReal) := fun i => by
    unfold chunkSum; simp_rw [hce]; exact coe_sum _ _
  have hsc : ∀ i, chunkScale (fun i r => (x i r : EReal)) i
      = ((Real.exp (m i - M) : ℝ) : EReal) := fun i => by
    unfold chunkScale; rw [hcm, hrm, ← EReal.coe_sub, Ideal.exp_coe]
  have htot : total (fun i r => (x i r : EReal))
      = ((∑ i, Real.exp (m i - M) * ∑ r, Real.exp (x i r - m i) : ℝ) : EReal) := by
    unfold total; simp_rw [hsc, hcs, ← EReal.coe_mul]; exact coe_sum _ _
  have hfe : ∀ i r, flatExp X (flatIdx i r) = ((Real.exp (x i r - M) : ℝ) : EReal) := fun i r => by
    unfold flatExp; rw [hfX, hX, max_eq_right bot_le, ← EReal.coe_sub, Ideal.exp_coe]
  have hfs : (∑ k, flatExp X k) = ((∑ i, ∑ r, Real.exp (x i r - M) : ℝ) : EReal) := by
    rw [← Fintype.sum_bijective _ flatIdx_bijective (fun p => flatExp X (flatIdx p.1 p.2))
      (flatExp X) (fun _ => rfl), Fintype.sum_prod_type]
    simp_rw [hfe, coe_sum]
  -- exp (m i - M) * sum_r exp (x i r - m i) = sum_r exp (x i r - M), and the normaliser is positive
  have hT : (∑ i, Real.exp (m i - M) * ∑ r, Real.exp (x i r - m i))
      = ∑ i, ∑ r, Real.exp (x i r - M) := by
    refine Finset.sum_congr rfl fun i _ => ?_
    rw [Finset.mul_sum]
    refine Finset.sum_congr rfl fun r _ => ?_
    rw [← Real.exp_add]; exact congrArg Real.exp (by ring)
  have hS : 0 < ∑ i, ∑ r, Real.exp (x i r - M) :=
    Finset.sum_pos (fun i _ => Finset.sum_pos (fun r _ => Real.exp_pos _) Finset.univ_nonempty)
      Finset.univ_nonempty
  unfold chunked chunkFactor flat
  rw [hce, hsc, htot, hT, hfe, hfs, zero_add, Ideal.div_coe hS.ne', Ideal.div_coe hS.ne', one_mul,
    ← EReal.coe_mul, ← EReal.coe_mul, ← EReal.coe_mul]
  rw [EReal.coe_eq_coe_iff, ← mul_assoc, ← Real.exp_add,
    show x i r - m i + (m i - M) = x i r - M by ring]

end Cert.GumbelSoftmax

end
-- ==== Proof.Final.lean ====
/-
  What the idealized kernel's result holds: at (b, v), the flat softmax of row b of logits + gumbel at v.

  The pallas_call works on the transposed view, lane b of which is row b of the inputs. Its input blocks at
  point j are bands of the transposed arrays, so each chunk's exponentials, maximum, sum and factor are the
  chunked softmax's quantities of lane b; the output block of chunk j is therefore the chunked softmax, which
  for real entries is the flat softmax. The blocks written back at points 50..99 tile the output array, and the
  host transposes it back.
-/
import proofs.«177340_g81492709474519_cont_9to1c4b_556_9_alg».proof.Proof.Data
import proofs.«177340_g81492709474519_cont_9to1c4b_556_9_alg».proof.Proof.Payloads
import proofs.«177340_g81492709474519_cont_9to1c4b_556_9_alg».proof.Proof.Law
import Idealize.ShloMosaic.Lib.Pipeline.Value
import Idealize.ShloMosaic.Lib.StableHlo.Run

set_option maxRecDepth 16384

noncomputable section

open scoped BigOperators

namespace Cert.KernelIdeal.Final

open Cert.KernelIdeal Cert.KernelIdeal.Gen Cert.KernelIdeal.Body Cert.KernelIdeal.Payloads Cert.GumbelSoftmax
open Idealize.ShloMosaic Idealize.ShloMosaic.TcCoe Idealize.ShloMosaic.ValueIdx Idealize.ShloMosaic.StableHlo Idealize.SL.Sem
open Idealize.ShloMosaic.Pipeline (Dat)

variable (m : (ℓ : Loc nD τ sig) → Buf (Elt Ideal) ℓ) (ρ : Dev nD → PrngReg)

/-- The two transposed inputs as the region finds them. -/
abbrev Xa (c : Dev nD) : S100000x128.Idx → EReal := V m c main_v0
abbrev Xg (c : Dev nD) : S100000x128.Idx → EReal := V m c main_v1

/-- Lane b of their sum: the row the softmax is taken of. -/
def rowOf (c : Dev nD) (b : Fin 128) (k : Fin 100000) : EReal := Xa m c (ix2 k b) + Xg m c (ix2 k b)
/-- The same row cut into chunks. -/
def col (c : Dev nD) (b : Fin 128) (i : Fin 50) (r : Fin 2000) : EReal := rowOf m c b (flatIdx i r)

/-- What the output array ends holding: at (v, b) the flat softmax of lane b at v. -/
def G (c : Dev nD) : S100000x128.Idx → EReal :=
  fun y => flat (rowOf m c ⟨(y 1).val, idx2_lt1 y⟩) ⟨(y 0).val, idx2_lt0 y⟩

/-! ## The input blocks are bands of the transposed arrays -/

theorem blkA_apply (c : Dev nD) (j : Fin 50) (r : Fin 2000) (b : Fin 128) :
    blkA m c (pt j) (ix2 r b) = Xa m c (ix2 (flatIdx j r) b) := by
  show V m c main_v0 (((cfg0.win 0).blk (pt j)).view.emb (ix2 r b)) = V m c main_v0 (ix2 (flatIdx j r) b)
  refine congrArg _ ?_
  funext a; apply Fin.ext
  have hi := index0 (pt j) j.isLt
  match a with
  | ⟨0, _⟩ =>
    show (cfg0.win 0).index (pt j) 0 * 2000 + 1 * r.val = 2000 * j.val + r.val
    rw [hi]; show j.val * 2000 + 1 * r.val = _; omega
  | ⟨1, _⟩ =>
    show (cfg0.win 0).index (pt j) 1 * 128 + 1 * b.val = b.val
    rw [hi]; show 0 * 128 + 1 * b.val = _; omega

theorem blkG_apply (c : Dev nD) (j : Fin 50) (r : Fin 2000) (b : Fin 128) :
    blkG m c (pt j) (ix2 r b) = Xg m c (ix2 (flatIdx j r) b) := by
  show V m c main_v1 (((cfg0.win 1).blk (pt j)).view.emb (ix2 r b)) = V m c main_v1 (ix2 (flatIdx j r) b)
  refine congrArg _ ?_
  funext a; apply Fin.ext
  have hi := index1 (pt j) j.isLt
  match a with
  | ⟨0, _⟩ =>
    show (cfg0.win 1).index (pt j) 0 * 2000 + 1 * r.val = 2000 * j.val + r.val
    rw [hi]; show j.val * 2000 + 1 * r.val = _; omega
  | ⟨1, _⟩ =>
    show (cfg0.win 1).index (pt j) 1 * 128 + 1 * b.val = b.val
    rw [hi]; show 0 * 128 + 1 * b.val = _; omega

/-- Lane b of the sum of the two input blocks at point j is chunk j of lane b. -/
theorem lane_eq (c : Dev nD) (j : Fin 50) (b : Fin 128) :
    lane (blkA m c (pt j)) (blkG m c (pt j)) b = col m c b j := by
  funext r; unfold lane col rowOf; rw [blkA_apply, blkG_apply]

/-! ## Each chunk's quantities are the chunked softmax's -/

theorem expChunk_apply (c : Dev nD) (j : Fin 50) (r : Fin 2000) (b : Fin 128) :
    expChunk m c j (ix2 r b) = chunkExp (col m c b) j r := by
  unfold expChunk; rw [expBlock_apply, lane_eq]; rfl

theorem maxRow_eq (c : Dev nD) (j : Fin 50) (b : Fin 128) :
    maxRow m c j (ix2 (0 : Fin 1) b) = chunkMax (col m c b) j := by
  unfold maxRow; rw [maxRow_apply, lane_eq]; rfl

theorem sumRow_eq (c : Dev nD) (j : Fin 50) (b : Fin 128) :
    sumRow m c j (ix2 (0 : Fin 1) b) = chunkSum (col m c b) j := by
  unfold sumRow; rw [sumRow_apply, lane_eq]; rfl

theorem maxTable_apply (c : Dev nD) (i : Fin 50) (b : Fin 128) :
    maxTable m c (ix2 i b) = chunkMax (col m c b) i := maxRow_eq m c i b

theorem sumTable_apply (c : Dev nD) (i : Fin 50) (b : Fin 128) :
    sumTable m c (ix2 i b) = chunkSum (col m c b) i := sumRow_eq m c i b

theorem factorTable_apply (c : Dev nD) (i : Fin 50) (b : Fin 128) :
    factorTable m c (ix2 i b) = chunkFactor (col m c b) i := by
  unfold factorTable; rw [factor_apply]
  simp only [maxTable_apply, sumTable_apply]
  rfl

/-- Output block j at (r, b) is the chunked softmax of lane b at entry r of chunk j. -/
theorem outChunk_apply (c : Dev nD) (j : Fin 50) (r : Fin 2000) (b : Fin 128) :
    outChunk m c j (ix2 r b) = chunked (col m c b) j r := by
  unfold outChunk; rw [outBlock_apply, expChunk_apply]
  show chunkExp (col m c b) j r * factorTable m c (ix2 j b) = _
  rw [factorTable_apply]; rfl

/-- For real entries that is the flat softmax. -/
theorem outChunk_eq_G (c : Dev nD) (hfin : ∀ b k, ∃ x : ℝ, rowOf m c b k = (x : EReal))
    (j : Fin 50) (r : Fin 2000) (b : Fin 128) :
    outChunk m c j (ix2 r b) = G m c (ix2 (flatIdx j r) b) := by
  rw [outChunk_apply]
  choose x hx using hfin
  have hc : col m c b = fun i r => (x b (flatIdx i r) : EReal) := funext fun i => funext fun r => hx b (flatIdx i r)
  rw [hc]
  exact chunked_eq_flat (fun i r => x b (flatIdx i r)) (rowOf m c b) (fun i r => hx b (flatIdx i r)) j r

/-! ## The blocks written back tile the output array -/

set_option maxRecDepth 100000 in
/-- What a point from 50 on writes back is its block of G. -/
theorem flushed_eq (c : Dev nD) (hfin : ∀ b k, ∃ x : ℝ, rowOf m c b k = (x : EReal)) (t : Fin cfg0.N)
    (hf : (cfg0.win 2).flush t = true) :
    (dats m 0 c).flushed 2 t = ((cfg0.win 2).blk t).view.read (Elt Ideal) (G m c) := by
  have hN : t.val < 100 := lt_of_lt_of_eq t.isLt N100
  have h3 : 50 ≤ t.val := by
    by_contra h
    have h' := noFlush2 t (by omega)
    rw [h'] at hf; exact absurd hf (by decide)
  show (cfg0.win 2).cut (grid0.coords t) ((dats m 0 c).after 2 t) = _
  rw [after2]
  funext (x : S2000x128.Idx)
  obtain ⟨r, b, rfl⟩ : ∃ (r : Fin 2000) (b : Fin 128), x = ix2 r b := ⟨x 0, x 1, eq_ix2 x⟩
  refine Eq.trans (outChunk_eq_G m c hfin (chunkOf t) r b) ?_
  rw [View.read_apply]
  refine Eq.trans (congrArg (G m c) ?_) (cast_eq _ _).symm
  funext a; apply Fin.ext
  have hi := index2 t h3
  match a with
  | ⟨0, _⟩ =>
    show 2000 * ((t.val - 50) % 50) + r.val = (cfg0.win 2).index t 0 * 2000 + 1 * r.val
    rw [hi]; show _ = (t.val - 50) * 2000 + 1 * r.val; omega
  | ⟨1, _⟩ =>
    show b.val = (cfg0.win 2).index t 1 * 128 + 1 * b.val
    rw [hi]; show _ = 0 * 128 + 1 * b.val; omega

/-- An index of the output array is in point t's block iff each coordinate is in the block's range. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v2).slice (win0_2.rect t)).set ↔ _
  rw [View.set_slice_whole, Rect.mem_set_unit]
  exact Iff.rfl

/-- Every row of the output array lies in the block some point from 50 on writes back: row v in that of point 50 + v / 2000. -/
theorem cover (i : S100000x128.Idx) : ∃ t : Fin cfg0.N, (cfg0.win 2).flush t = true ∧ i ∈ ((cfg0.win 2).blk t).view.set := by
  have h0 : (i 0).val < 100000 := idx2_lt0 i
  have h1 : (i 1).val < 128 := idx2_lt1 i
  have hlt : 50 + (i 0).val / 2000 < cfg0.N := by have := N100; omega
  have h3 : 50 ≤ (⟨50 + (i 0).val / 2000, hlt⟩ : Fin cfg0.N).val := Nat.le_add_right _ _
  refine ⟨⟨50 + (i 0).val / 2000, hlt⟩, flush2 _ h3, ?_⟩
  rw [mem_blk]
  have hi := index2 ⟨50 + (i 0).val / 2000, hlt⟩ h3
  intro a
  match a with
  | ⟨0, _⟩ =>
    show win0_2.index ⟨50 + (i 0).val / 2000, hlt⟩ 0 * 2000 ≤ (i 0).val ∧ (i 0).val < win0_2.index ⟨50 + (i 0).val / 2000, hlt⟩ 0 * 2000 + 2000
    rw [show win0_2.index ⟨50 + (i 0).val / 2000, hlt⟩ = _ from hi]
    show (50 + (i 0).val / 2000 - 50) * 2000 ≤ (i 0).val ∧ (i 0).val < (50 + (i 0).val / 2000 - 50) * 2000 + 2000
    omega
  | ⟨1, _⟩ =>
    show win0_2.index ⟨50 + (i 0).val / 2000, hlt⟩ 1 * 128 ≤ (i 1).val ∧ (i 1).val < win0_2.index ⟨50 + (i 0).val / 2000, hlt⟩ 1 * 128 + 128
    rw [show win0_2.index ⟨50 + (i 0).val / 2000, hlt⟩ = _ from hi]
    show 0 * 128 ≤ (i 1).val ∧ (i 1).val < 0 * 128 + 128
    omega

/-- The output array after the run, for real inputs. -/
theorem final (c : Dev nD) (hfin : ∀ b k, ∃ x : ℝ, rowOf m c b k = (x : EReal)) :
    (dats m 0 c).arrAt 2 cfg0.N = G m c :=
  (dats m 0 c).arrAt_eq_of_cover 2 (G m c) (fun t hf => flushed_eq m c hfin t hf) cover

/-! ## The host lines around the region -/

/-- The two inputs as launched. -/
abbrev A0 (c : Dev nD) : S128x100000.Idx → EReal := m ((c : Thread nD τ).loc main_arg0)
abbrev A1 (c : Dev nD) : S128x100000.Idx → EReal := m ((c : Thread nD τ).loc main_arg1)

/-- The region finds the two inputs transposed. -/
theorem Xa_eq (c : Dev nD) :
    Xa m c = transpose S100000x128 [1, 0] (A0 m c) transposes_S128x100000_S100000x128_1_0 := by
  show StableHlo.after hostOps0 (fun b => m (c, b)) (Proc.devRef .tc main_v0) = _
  after_results
theorem Xg_eq (c : Dev nD) :
    Xg m c = transpose S100000x128 [1, 0] (A1 m c) transposes_S128x100000_S100000x128_1_0 := by
  show StableHlo.after hostOps0 (fun b => m (c, b)) (Proc.devRef .tc main_v1) = _
  after_results

/-- Lane b of the transposed view is row b of the inputs. -/
theorem rowOf_eq (c : Dev nD) (b : Fin 128) (k : Fin 100000) :
    rowOf m c b k = A0 m c (ix2 b k) + A1 m c (ix2 b k) := by
  unfold rowOf
  rw [Xa_eq, Xg_eq,
    transpose_apply [1, 0] _ transposes_S128x100000_S100000x128_1_0 (ix2 k b) (ix2 b k) (fun a => by match a with | ⟨0, _⟩ => rfl | ⟨1, _⟩ => rfl),
    transpose_apply [1, 0] _ transposes_S128x100000_S100000x128_1_0 (ix2 k b) (ix2 b k) (fun a => by match a with | ⟨0, _⟩ => rfl | ⟨1, _⟩ => rfl)]

/-- The result after the host's last line: the output array transposed back. -/
theorem tail_eq (c : Dev nD) (hfin : ∀ b k, ∃ x : ℝ, rowOf m c b k = (x : EReal)) :
    Pipeline.afterTail₀ cfgs (dats m) 0 (V0 m) [hostOps1] c main_v3
      = transpose S128x100000 [1, 0] (G m c) transposes_S100000x128_S128x100000_1_0 := by
  unfold Pipeline.afterTail₀
  show StableHlo.after hostOps1 _ (Proc.devRef .tc main_v3) = _
  after_results
  exact congrArg (fun x => transpose S128x100000 [1, 0] x transposes_S100000x128_S128x100000_1_0)
    ((Pipeline.withArrays_arr spec0 launch0.win.arr_inj c _ _ 2).trans (final m c hfin))

/-! ## The run, read at the result -/

/-- The result as a function of the inputs as launched: at (b, v) the flat softmax of row b of their sum at v. -/
def result (c : Dev nD) : S128x100000.Idx → EReal :=
  fun y => flat (fun k => A0 m c (ix2 (⟨(y 0).val, idx2_lt0 y⟩ : Fin 128) k) + A1 m c (ix2 (⟨(y 0).val, idx2_lt0 y⟩ : Fin 128) k))
    ⟨(y 1).val, idx2_lt1 y⟩

theorem rowOf_fun (c : Dev nD) (b : Fin 128) : rowOf m c b = fun k => A0 m c (ix2 b k) + A1 m c (ix2 b k) :=
  funext (rowOf_eq m c b)

/-- Real inputs make every lane real. -/
theorem hfin_of_real (c : Dev nD) (h0 : ∀ y, ∃ r : ℝ, A0 m c y = (r : EReal)) (h1 : ∀ y, ∃ r : ℝ, A1 m c y = (r : EReal)) :
    ∀ b k, ∃ x : ℝ, rowOf m c b k = (x : EReal) := fun b k => by
  obtain ⟨r0, e0⟩ := h0 (ix2 b k); obtain ⟨r1, e1⟩ := h1 (ix2 b k)
  exact ⟨r0 + r1, by rw [rowOf_eq, e0, e1, EReal.coe_add]⟩

/-- The output array transposed back is the result. -/
theorem transposed_G (c : Dev nD) :
    transpose S128x100000 [1, 0] (G m c) transposes_S100000x128_S128x100000_1_0 = result m c := by
  funext y
  obtain ⟨b, v, rfl⟩ : ∃ (b : Fin 128) (v : Fin 100000), y = ix2 b v := ⟨y 0, y 1, eq_ix2 y⟩
  rw [transpose_apply [1, 0] (G m c) transposes_S100000x128_S128x100000_1_0 (ix2 b v) (ix2 v b)
    (fun a => by match a with | ⟨0, _⟩ => rfl | ⟨1, _⟩ => rfl)]
  show flat (rowOf m c b) v = flat (fun k => A0 m c (ix2 b k) + A1 m c (ix2 b k)) v
  rw [rowOf_fun]

/-- For real inputs every weakly fair execution of the idealized kernel ends with the result at the flat softmax
    of the rows of logits + gumbel, the inputs unchanged. -/
theorem run (hreal : ∀ c, (∀ y, ∃ r : ℝ, A0 m c y = (r : EReal)) ∧ (∀ y, ∃ r : ℝ, A1 m c y = (r : EReal))) :
    θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v3 (Pipeline.mem_restRefs_of main_v3 (by decide) (by decide))).trans
        ((tail_eq m c (hfin_of_real m c (hreal c).1 (hreal c).2)).trans (transposed_G m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main (F := Ideal) m ρ)

end Cert.KernelIdeal.Final

end
-- ==== Proof.Finite.lean ====
/-
  The precondition read: both inputs hold real numbers only.

  The printed predicate compares the absolute value of every entry of each input with +infinity,
  takes the conjunction over each array and the conjunction of the two; it is all ones exactly when no
  entry is an infinity.
-/
import proofs.«177340_g81492709474519_cont_9to1c4b_556_9_alg».proof.Pre_finite_inputs
import Idealize.ShloMosaic.PureOps.Ideal
import Idealize.ShloMosaic.Lib.ReduceAll
import Idealize.ShloMosaic.Lib.ValueIdx

noncomputable section

namespace Cert.Pre_finite_inputs.Finite

open Cert.Pre_finite_inputs Idealize.ShloMosaic

variable [Cert.Pre_finite_inputs.Facts]

/-- The scalar shape has one index. -/
private instance : Subsingleton S_.Idx := ⟨fun a b => funext fun d => d.elim0⟩

/-- The f32 pattern of +infinity denotes the top element. -/
private theorem inf_bits : Ideal.ofBits .f32 0x7F800000#32 = ⊤ := by
  simp [Ideal.ofBits, Ideal.ieee]

/-- An extended real whose absolute value is strictly below +infinity is a real number:
    at the bottom and at the top the absolute value is the top, which is not below itself. -/
private theorem real_of_abs_lt (x : EReal)
    (h : Ideal.cmp .olt (max x (-x)) (Ideal.ofBits .f32 0x7F800000#32) = 1#1) :
    ∃ r : ℝ, x = (r : EReal) := by
  rw [inf_bits] at h
  induction x using EReal.rec with
  | bot => simp [Ideal.cmp] at h
  | coe r => exact ⟨r, rfl⟩
  | top => simp [Ideal.cmp] at h

/-- If the predicate is all ones, every entry of both inputs is a real number. -/
theorem real_of_pre (x0 x1 : FVec Ideal S128x100000 .f32)
    (h : Cert.Pre_finite_inputs.fn (F := Ideal) x0 x1 = fun _ => 1#1) :
    (∀ y, ∃ r : ℝ, x0 y = (r : EReal)) ∧ (∀ y, ∃ r : ℝ, x1 y = (r : EReal)) := by
  -- the predicate at the one index of the scalar shape
  have h0 := congrFun h ValueIdx.ix0
  unfold Cert.Pre_finite_inputs.fn at h0
  dsimp only at h0
  -- the conjunction of the two reductions is one: each reduction is one
  obtain ⟨ha, hb⟩ := IntOp.andi_eq_one.1 h0
  constructor
  · intro y
    -- a conjunction over all entries that is one has a one at every entry
    have hy := Host.reduce_andi_all _ _ _ _ _ ha y
    exact real_of_abs_lt _ hy
  · intro y
    have hy := Host.reduce_andi_all _ _ _ _ _ hb y
    exact real_of_abs_lt _ hy

end Cert.Pre_finite_inputs.Finite

end
-- ==== Proof.RefSide.lean ====
/-
  The reference's result at an index: the flat softmax of the row (logits + gumbel) / 1, read off the
  reference's run one host operation at a time.
-/
import proofs.«177340_g81492709474519_cont_9to1c4b_556_9_alg».proof.Proof.Gen.ReferenceIdeal.Run
import proofs.«177340_g81492709474519_cont_9to1c4b_556_9_alg».proof.Proof.Gen.ReferenceIdeal.Read
import proofs.«177340_g81492709474519_cont_9to1c4b_556_9_alg».proof.Proof.Spec
import Idealize.ShloMosaic.Lib.ValueIdx
import Idealize.ShloMosaic.PureOps.Reduce

noncomputable section

open scoped BigOperators

namespace Cert.ReferenceIdeal.RefSide

open Cert.ReferenceIdeal Cert.ReferenceIdeal.Gen Idealize.ShloMosaic Idealize.ShloMosaic.ValueIdx Cert.GumbelSoftmax

/-- Row b of the reference's softmax input: (logits + gumbel) / 1, entry by entry. -/
def row (x0 x1 : FVec Ideal S128x100000 .f32) (b : Fin 128) (k : Fin 100000) : EReal :=
  Ideal.div (x0 (ix2 b k) + x1 (ix2 b k)) 1

/-- The pattern 0x3F800000 denotes one. -/
private theorem ofBits_one : Ideal.ofBits .f32 0x3F800000#32 = 1 := by
  simp [Ideal.ofBits, Ideal.ieee]
  rw [← EReal.coe_mul, ← EReal.coe_one]
  exact congrArg _ (by norm_num)

/-- The pattern 0xFF800000 denotes minus infinity. -/
private theorem ofBits_negInf : Ideal.ofBits .f32 0xFF800000#32 = ⊥ := by
  simp [Ideal.ofBits, Ideal.ieee]

/-- The quotient by one, read at (b, k), is the row's entry. -/
private theorem v2_apply (x0 x1 : FVec Ideal S128x100000 .f32) (b : Fin 128) (k : Fin 100000) :
    Cert.ReferenceIdeal.Read.val_main_v2 (F := Ideal) x0 x1 (ix2 b k) = row x0 x1 b k := by
  rw [Read.val_main_v2_apply, Read.val_main_v0_apply, Read.val_main_v1_apply, Read.val_main_cst_apply]
  simp only [Ideal.hostDivf_def, Ideal.addf_def, Ideal.ofBits_def, ofBits_one]
  rfl

/-- A row index with the column k put back on the reduced axis is (b, k). -/
private theorem lift_row (h : S128x100000.Reduces [1] S128) (b : Fin 128) (k : Fin (S128x100000.size 1)) :
    h.lift (ix1 b) k = ix2 b (⟨k.val, k.isLt⟩ : Fin 100000) := by
  funext c; apply Fin.ext
  match c with
  | ⟨0, _⟩ => rfl
  | ⟨1, _⟩ => rfl

/-- The maximum over the columns, from minus infinity, at row b is the maximum of the row. -/
private theorem v3_apply (x0 x1 : FVec Ideal S128x100000 .f32) (b : Fin 128) :
    Cert.ReferenceIdeal.Read.val_main_v3 (F := Ideal) x0 x1 (ix1 b) = fmax (row x0 x1 b) := by
  have h : S128x100000.Reduces [1] S128 := by decide
  unfold Read.val_main_v3
  rw [Host.reduce_eq_fold_single FloatOps.maximumf _ _ reducesTo_S128x100000_S128_d1 h h_S_]
  have hf : (Read.val_main_v2 (F := Ideal) x0 x1 ∘ h.lift (ix1 b)) = row x0 x1 b := funext fun k => by
    show Read.val_main_v2 (F := Ideal) x0 x1 (h.lift (ix1 b) k) = _
    rw [lift_row h b k]; exact v2_apply x0 x1 b _
  rw [hf, Read.val_main_cst_0_apply, Ideal.ofBits_def, ofBits_negInf]
  rfl

/-- The maximum once more joined with minus infinity, at row b. -/
private theorem v5_apply (x0 x1 : FVec Ideal S128x100000 .f32) (b : Fin 128) :
    Cert.ReferenceIdeal.Read.val_main_v5 (F := Ideal) x0 x1 (ix1 b) = max ⊥ (fmax (row x0 x1 b)) := by
  rw [Read.val_main_v5_apply, Read.val_main_v4_apply, Read.val_main_cst_1_apply, v3_apply]
  simp only [Ideal.maximumf_def, Ideal.ofBits_def, ofBits_negInf]

/-- The exponential of an entry less the row's maximum, at (b, k). -/
private theorem v9_apply (x0 x1 : FVec Ideal S128x100000 .f32) (b : Fin 128) (k : Fin 100000) :
    Cert.ReferenceIdeal.Read.val_main_v9 (F := Ideal) x0 x1 (ix2 b k) = flatExp (row x0 x1 b) k := by
  rw [Read.val_main_v9_apply, Read.val_main_v8_apply, Read.val_main_v7_apply, Read.val_main_v6_apply, v2_apply]
  have e : Read.idx_main_v6 (Read.idx_main_v7 (ix2 b k)) = ix1 b :=
    funext fun a => Fin.ext (by match a with | ⟨0, _⟩ => rfl)
  rw [e, v5_apply]
  simp only [Ideal.hostUnary_exp_def, Ideal.subf_def]
  rfl

/-- The sum of the row's exponentials, from zero, at row b. -/
private theorem v10_apply (x0 x1 : FVec Ideal S128x100000 .f32) (b : Fin 128) :
    Cert.ReferenceIdeal.Read.val_main_v10 (F := Ideal) x0 x1 (ix1 b)
      = 0 + ∑ k' : Fin 100000, flatExp (row x0 x1 b) k' := by
  rw [Read.val_main_v10_apply, Read.val_main_cst_2_apply, Ideal.ofBits_def, Ideal.ofBits_zero_f32]
  refine congrArg (0 + ·) (Finset.sum_congr rfl fun k _ => ?_)
  have e : Read.idx_main_v10 (ix1 b) k = ix2 b k :=
    funext fun a => Fin.ext (by match a with | ⟨0, _⟩ => rfl | ⟨1, _⟩ => rfl)
  rw [e, v9_apply]

/-- The reference's result at (b, v) is the flat softmax of row b at v. -/
theorem result_apply (x0 x1 : FVec Ideal S128x100000 .f32) (b : Fin 128) (v : Fin 100000) :
    Cert.ReferenceIdeal.Read.val_main_v13 (F := Ideal) x0 x1 (ix2 b v) = flat (row x0 x1 b) v := by
  rw [Read.val_main_v13_apply, Read.val_main_v12_apply, Read.val_main_v11_apply, v9_apply]
  have e : Read.idx_main_v11 (Read.idx_main_v12 (ix2 b v)) = ix1 b :=
    funext fun a => Fin.ext (by match a with | ⟨0, _⟩ => rfl)
  rw [e, v10_apply, Ideal.hostDivf_def]
  rfl

end Cert.ReferenceIdeal.RefSide

end
-- ==== Proof.RefBridge.lean ====
/-
  The reference's result for real inputs, with the division by one gone: at (b, v) the flat softmax of
  row b of the two inputs' sum at v.
-/
import proofs.«177340_g81492709474519_cont_9to1c4b_556_9_alg».proof.Proof.RefSide

noncomputable section

open scoped BigOperators

namespace Cert.ReferenceIdeal.RefSide

open Cert.ReferenceIdeal Cert.ReferenceIdeal.Gen Idealize.ShloMosaic Idealize.ShloMosaic.ValueIdx Cert.GumbelSoftmax

/-- A real number divided by one is itself. -/
theorem div_one_real (x : ℝ) : Ideal.div (x : EReal) 1 = (x : EReal) := by
  rw [show (1 : EReal) = ((1 : ℝ) : EReal) from rfl, Ideal.div_coe one_ne_zero, div_one, EReal.coe_one, mul_one]

/-- For real inputs the reference's result is the flat softmax of the rows of their sum. -/
theorem result_real (x0 x1 : FVec Ideal S128x100000 .f32)
    (h0 : ∀ y, ∃ r : ℝ, x0 y = (r : EReal)) (h1 : ∀ y, ∃ r : ℝ, x1 y = (r : EReal)) :
    Cert.ReferenceIdeal.Read.val_main_v13 (F := Ideal) x0 x1
      = fun y => flat (fun k => x0 (ix2 (⟨(y 0).val, idx2_lt0 y⟩ : Fin 128) k) + x1 (ix2 (⟨(y 0).val, idx2_lt0 y⟩ : Fin 128) k))
          ⟨(y 1).val, idx2_lt1 y⟩ := by
  funext y
  obtain ⟨b, v, rfl⟩ : ∃ (b : Fin 128) (v : Fin 100000), y = ix2 b v := ⟨y 0, y 1, eq_ix2 y⟩
  rw [result_apply]
  show flat (row x0 x1 b) v = flat (fun k => x0 (ix2 b k) + x1 (ix2 b k)) v
  refine congrArg (fun X => flat X v) (funext fun k => ?_)
  unfold row
  obtain ⟨r0, e0⟩ := h0 (ix2 b k); obtain ⟨r1, e1⟩ := h1 (ix2 b k)
  rw [e0, e1, ← EReal.coe_add]; exact div_one_real _

end Cert.ReferenceIdeal.RefSide

end
-- ==== Proof.lean ====
/-
  Gumbel-softmax: the kernel's softmax of logits + gumbel along the vocabulary axis, computed chunk by
  chunk on the transposed view with a per-chunk maximum and a final rescaling, against jnp's softmax.

  The three frames: each program runs to the end, faults nowhere and leaves its two inputs unchanged. For the
  kernel, at the word-level and at the ideal instance alike, that is the frame run over the proof data that
  follows the scratch buffers chunk by chunk; for the reference it is its run with the result dropped.
  The ideal pass rewrote nothing, so there is nothing to preserve. And over the extended reals, for finite
  inputs, both programs end with the same result: exp (x - m_j) (exp (m_j - M) (1 / s)) = exp (x - M) / S, where
  m_j is a chunk's maximum, M the row's, and s = S the row's sum of exp (x - M).
-/
import proofs.«177340_g81492709474519_cont_9to1c4b_556_9_alg».proof.Defs
import proofs.«177340_g81492709474519_cont_9to1c4b_556_9_alg».proof.Proof.Gen.Kernel
import proofs.«177340_g81492709474519_cont_9to1c4b_556_9_alg».proof.Proof.Gen.KernelIdeal
import proofs.«177340_g81492709474519_cont_9to1c4b_556_9_alg».proof.Proof.Gen.ReferenceIdeal
import proofs.«177340_g81492709474519_cont_9to1c4b_556_9_alg».proof.Proof.Gen.Pre_finite_inputs
import proofs.«177340_g81492709474519_cont_9to1c4b_556_9_alg».proof.Proof.DataBits
import proofs.«177340_g81492709474519_cont_9to1c4b_556_9_alg».proof.Proof.Final
import proofs.«177340_g81492709474519_cont_9to1c4b_556_9_alg».proof.Proof.Finite
import proofs.«177340_g81492709474519_cont_9to1c4b_556_9_alg».proof.Proof.RefBridge

noncomputable section

namespace Cert.Proof

open Idealize.ShloMosaic Idealize.ShloMosaic.TcCoe Idealize.SL.Sem

/-- The word-level kernel runs and keeps its inputs. -/
theorem frame_kernel : Cert.frame_Kernel := fun m ρ _ => Cert.Kernel.Body.frame m ρ

/-- The idealized kernel runs and keeps its inputs. -/
theorem frame_kernelIdeal : Cert.frame_KernelIdeal := fun m ρ _ => Cert.KernelIdeal.Body.frame m ρ

/-- The reference runs and keeps its inputs: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- For finite inputs both idealized programs end with the flat softmax of the rows of logits + gumbel. -/
theorem algebraic : Cert.algebraic_KernelIdeal_ReferenceIdeal := by
  intro m ρ m' ρ' hpre hagree
  have hreal : ∀ c, (∀ y, ∃ r : ℝ, Cert.KernelIdeal.Final.A0 m c y = (r : EReal)) ∧ (∀ y, ∃ r : ℝ, Cert.KernelIdeal.Final.A1 m c y = (r : EReal)) :=
    fun c => Cert.Pre_finite_inputs.Finite.real_of_pre _ _ (hpre c)
  refine ⟨fun c => Cert.KernelIdeal.Final.result m c, Cert.KernelIdeal.Final.run m ρ hreal, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v13_eq _ _).trans
    (Cert.ReferenceIdeal.RefSide.result_real _ _ (hreal c).1 (hreal c).2)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
